-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024x1536 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1536 .f32 := Host.absf main_arg11
  let main_cst_20 : FVec F S_ .f32 := constant S_ .f32 0x7F800000#32
  let main_v55 : FVec F S1024x1536 .f32 := broadcastInDim S1024x1536 ![] bcast_S_S1024x1536 main_cst_20
  let main_v56 : IVec S1024x1536 1 := cmpf .olt main_v54 main_v55
  let main_c_21 : IVec S_ 1 := constantI S_ 1 1#1
  let main_v57 : IVec S_ 1 := (fun x v => Host.reduce IntOp.andi x v reducesTo_S1024x1536_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_v33 : IVec S_ 1) : IVec S_ 1 :=
  let main_v34 : FVec F S1024x1536 .f32 := Host.absf main_arg7
  let main_cst_12 : FVec F S_ .f32 := constant S_ .f32 0x7F800000#32
  let main_v35 : FVec F S1024x1536 .f32 := broadcastInDim S1024x1536 ![] bcast_S_S1024x1536 main_cst_12
  let main_v36 : IVec S1024x1536 1 := cmpf .olt main_v34 main_v35
  let main_c_13 : IVec S_ 1 := constantI S_ 1 1#1
  let main_v37 : IVec S_ 1 := (fun x v => Host.reduce IntOp.andi x v reducesTo_S1024x1536_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1536 .f32 := Host.absf main_arg9
  let main_cst_16 : FVec F S_ .f32 := constant S_ .f32 0x7F800000#32
  let main_v45 : FVec F S1024x1536 .f32 := broadcastInDim S1024x1536 ![] bcast_S_S1024x1536 main_cst_16
  let main_v46 : IVec S1024x1536 1 := cmpf .olt main_v44 main_v45
  let main_c_17 : IVec S_ 1 := constantI S_ 1 1#1
  let main_v47 : IVec S_ 1 := (fun x v => Host.reduce IntOp.andi x v reducesTo_S1024x1536_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x1536 .f32 := Host.absf main_arg5
  let main_cst_8 : FVec F S_ .f32 := constant S_ .f32 0x7F800000#32
  let main_v25 : FVec F S1024x1536 .f32 := broadcastInDim S1024x1536 ![] bcast_S_S1024x1536 main_cst_8
  let main_v26 : IVec S1024x1536 1 := cmpf .olt main_v24 main_v25
  let main_c_9 : IVec S_ 1 := constantI S_ 1 1#1
  let main_v27 : IVec S_ 1 := (fun x v => Host.reduce IntOp.andi x v reducesTo_S1024x1536_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x512 .f32) (main_arg1 : FVec F S4096x1024 .f32) (main_arg2 : FVec F S4096x1024 .f32) (main_arg3 : FVec F S4096x1024 .f32) (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_v13 main_v16
-- ==== Kernel.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S1536x1024 : Shape := ⟨2, ![1536, 1024]⟩
abbrev S1536x4096 : Shape := ⟨2, ![1536, 4096]⟩
abbrev S4096 : Shape := ⟨1, ![4096]⟩
abbrev S1x4096 : Shape := ⟨2, ![1, 4096]⟩
abbrev S256x512 : Shape := ⟨2, ![256, 512]⟩
abbrev S256x1024 : Shape := ⟨2, ![256, 1024]⟩
abbrev S512x4096 : Shape := ⟨2, ![512, 4096]⟩
abbrev S1024x4096 : Shape := ⟨2, ![1024, 4096]⟩
abbrev S256x4096 : Shape := ⟨2, ![256, 4096]⟩

abbrev nBuf : Space → Nat
  | .hbm => 25
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S1536x1024, .f32⟩
  | .hbm, ⟨14, _⟩ => ⟨S1536x1024, .f32⟩
  | .hbm, ⟨15, _⟩ => ⟨S1536x1024, .f32⟩
  | .hbm, ⟨16, _⟩ => ⟨S1536x1024, .f32⟩
  | .hbm, ⟨17, _⟩ => ⟨S1536x4096, .f32⟩
  | .hbm, ⟨18, _⟩ => ⟨S1536x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1536x4096, .bf16⟩
  | .local _ .vmem, ⟨11, _⟩ => ⟨S1x4096, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S1024x1536_S1536x1024_1_0 : S1024x1536.Transposes [1, 0] S1536x1024
  concatenates_S1536x1024_S1536x1024_S1536x1024_S1536x1024_S1536x4096_d1 : Shape.Concatenates [S1536x1024, S1536x1024, S1536x1024, S1536x1024] S1536x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S1536x4096_S512x4096_0_0 : ∀ a, (![0, 0] : Fin 2 → Nat) a + S512x4096.size a ≤ S1536x4096.size a
  h_S512x4096 : 0 < S512x4096.numel
  shapeCasts_S512x4096_S512x4096 : S512x4096.ShapeCasts S512x4096
  inb_S1536x4096_S1024x4096_512_0 : ∀ a, (![512, 0] : Fin 2 → Nat) a + S1024x4096.size a ≤ S1536x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x4096.size a ≤ S1536x4096.size a
  hwx0_5 : ∀ i : grid0.Coords, EltTy.bits .bf16 = 32 ∨ (Rect.block (s := S1536x4096) S1536x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1536x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_3) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S4096x1536 : Shape := ⟨2, ![4096, 1536]⟩
abbrev S1536x1024 : Shape := ⟨2, ![1536, 1024]⟩
abbrev S1x1024 : Shape := ⟨2, ![1, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S4096x1536, .f32⟩
  | .hbm, ⟨14, _⟩ => ⟨S1536x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1536x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1536x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1536x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  concatenates_S4096x512_S4096x1024_S4096x1536_d1 : Shape.Concatenates [S4096x512, S4096x1024] S4096x1536 1
  transposes_S1024x1536_S1536x1024_1_0 : S1024x1536.Transposes [1, 0] S1536x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1536_S1536x1024_S4096x1024_1_0_0_1_n_n_wf : DotDims.WF S4096x1536 S1536x1024 S4096x1024 [1] [0] [0] [1] [] []

variable [Facts₀]

def dot_S4096x1536_S1536x1024_S4096x1024_1_0_0_1_n_n : DotDims S4096x1536 S1536x1024 S4096x1024 where
  lhsContracting := [1]
  rhsContracting := [0]
  lhsNonContracting := [0]
  rhsNonContracting := [1]
  lhsBatch := []
  rhsBatch := []
  wf := dot_S4096x1536_S1536x1024_S4096x1024_1_0_0_1_n_n_wf

class Facts : Prop extends Facts₀ where

variable [Facts]
-- ==== Proof.BitsRegion.lean ====
/-
  The program runs to the end and leaves its thirteen argument arrays as they were; and what each of
  its four result arrays then holds.

  @main is eight host operations (four transposes, a four-piece concatenate and its change of format:
  the fused weight; a four-piece concatenate and its reshape: the fused bias) and then one region on a
  grid of 16 points. None of the eight writes an argument array, so the region finds every argument
  as launched. At point t the body reads the t-th 256-row block of x and of the four states, the whole
  fused weight (in two loads: its rows 0..511 and its rows 512..1535) and the whole fused bias, and stores
  four whole 256×1024 blocks, each a pure function of what it read (it also loads each result buffer
  once before storing into it, and uses none of those values). So after the body each result's staging
  buffer holds that function of the input blocks at the point, whatever it held before, and the launch
  theorem for a region whose body keeps nothing from point to point gives the run.
-/
import proofs.«410458_j35450660061940_3_alg».proof.Proof.Gen.Kernel.Launch
import proofs.«410458_j35450660061940_3_alg».proof.Proof.Gen.Kernel.Skeleton
import proofs.«410458_j35450660061940_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents run through the eight host operations. -/
abbrev entry (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The buffers the host operations write: the eight intermediate values. -/
abbrev written : List (Ref sig .tc) := [main_v0, main_v1, main_v2, main_v3, main_v4, main_v5, main_v6, main_v7]

theorem hostOps0_writes : (hostOps0 : List (HloOp τ sig (Elt F))).Forall fun op =>
    op.writes ⊆ (written.map (Proc.devRef (τ := τ) .tc)).toFinset := by
  simp only [hostOps0, written, List.Forall, StableHlo.unary_writes, StableHlo.nary_writes, StableHlo.reshape_writes,
    Finset.singleton_subset_iff, List.map_cons, List.map_nil, List.toFinset_cons, List.toFinset_nil,
    Finset.mem_insert, Finset.mem_singleton, true_or, or_true, and_self]

/-- A buffer that is none of those eight is found as launched: every argument array is. -/
theorem entry_of_not_written (c : Dev nD) (b : Ref sig .tc) (hb : b ∉ written) :
    entry m c b = m ((c : Thread nD τ).loc b) :=
  StableHlo.after_of_writes_sub hostOps0 (fun b => m (c, b)) hostOps0_writes hb

/-! ## A window's block at a point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Found

variable {c : Dev nD} (dat : Dat τ (Elt F) Unit ℕ (UR sig nD τ) ℕ cfg0 c)

/-! An input window's current staging buffer holds its block at every point, whether the pipeline fetched it
there or the block index has not moved since it did (the fused weight and bias are fetched once, at the
first point) — for any proof data over the entry contents whose body leaves the input blocks in place. -/

theorem found0_of (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of (hA : dat.A 6 = entry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

end Found

/-! ## What the body leaves in each result's staging buffer -/

/-- The rectangles the body reads and writes through: a whole x-block, a whole state block, the first 512 and
    the last 1024 rows of the fused weight, the whole fused bias. -/
abbrev rX : Rect S256x512 := Rect.unit (s := S256x512) ![0, 0] S256x512.size Gen.inb_S256x512_S256x512_0_0
abbrev rS : Rect S256x1024 := Rect.unit (s := S256x1024) ![0, 0] S256x1024.size Gen.inb_S256x1024_S256x1024_0_0
abbrev rWx : Rect S1536x4096 := Rect.unit (s := S1536x4096) ![0, 0] S512x4096.size Gen.inb_S1536x4096_S512x4096_0_0
abbrev rWh : Rect S1536x4096 := Rect.unit (s := S1536x4096) ![512, 0] S1024x4096.size Gen.inb_S1536x4096_S1024x4096_512_0
abbrev rB : Rect S1x4096 := Rect.unit (s := S1x4096) ![0, 0] S1x4096.size Gen.inb_S1x4096_S1x4096_0_0

section Left

variable (x0 : Vec F S256x512 .f32) (x1 x2 x3 x4 : Vec F S256x1024 .f32) (x5 : Vec F S1536x4096 .bf16) (x6 : Vec F S1x4096 .f32)

/-- From the contents of the seven input buffers (x, h, c, m, n blocks; fused weight; fused bias): what the one
    store into each result buffer leaves there — the hidden, cell, stabiliser and normaliser blocks. -/
def leftH : Vec F S256x1024 .f32 :=
  View.canon [⟨rS, k0_pay9 (View.ld x0 rX) (View.ld x1 rS) (View.ld x5 rWx) (View.ld x5 rWh) (View.ld x6 rB) (View.ld x3 rS) (View.ld x2 rS) (View.ld x4 rS)⟩]
def leftC : Vec F S256x1024 .f32 :=
  View.canon [⟨rS, k0_pay7 (View.ld x0 rX) (View.ld x1 rS) (View.ld x5 rWx) (View.ld x5 rWh) (View.ld x6 rB) (View.ld x3 rS) (View.ld x2 rS)⟩]
def leftM : Vec F S256x1024 .f32 :=
  View.canon [⟨rS, k0_pay4 (View.ld x0 rX) (View.ld x1 rS) (View.ld x5 rWx) (View.ld x5 rWh) (View.ld x6 rB) (View.ld x3 rS)⟩]
def leftN : Vec F S256x1024 .f32 :=
  View.canon [⟨rS, k0_pay8 (View.ld x0 rX) (View.ld x1 rS) (View.ld x5 rWx) (View.ld x5 rWh) (View.ld x6 rB) (View.ld x3 rS) (View.ld x4 rS)⟩]

end Left

/-- One store of a whole block covers the buffer. -/
theorem stored_covers (p0 : Vec F S256x1024 .f32) (y : S256x1024.Idx) :
    ∃ pc ∈ ([⟨rS, p0⟩] : List (View.Piece (Elt F) S256x1024 .f32)), y ∈ pc.1.set :=
  View.cover_of_tiled [⟨rS, p0⟩] S256x1024.size (by rfl) y

/-! ## The body's triple -/

set_option maxHeartbeats 4000000 in
/-- The body on whole staging memrefs, the seven inputs' at read contents x0 … x6 and the four results' at anything,
    runs to the continuation holding the inputs' as they were and the results' at the four stored blocks. -/
theorem body_triple (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1536x4096 .bf16) (harg6 : arg6.IsWhole)
    (arg7 : Memref sig .tc .vmem S1x4096 .f32) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S256x1024 .f32) (harg10 : arg10.IsWhole)
    (arg11 : Memref sig .tc .vmem S256x1024 .f32) (harg11 : arg11.IsWhole)
    (x0 : Vec F S256x512 .f32) (x1 x2 x3 x4 : Vec F S256x1024 .f32) (x5 : Vec F S1536x4096 .bf16) (x6 : Vec F S1x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6
            ∗ owns (c : Thread nD τ) arg8 fullShare (leftH x0 x1 x2 x3 x4 x5 x6) ∗ owns (c : Thread nD τ) arg9 fullShare (leftC x0 x1 x2 x3 x5 x6)
            ∗ owns (c : Thread nD τ) arg10 fullShare (leftM x0 x1 x3 x5 x6) ∗ owns (c : Thread nD τ) arg11 fullShare (leftN x0 x1 x3 x4 x5 x6)) -∗ K ⟨⟩))
      ⊢ wp frame (wpE (defs₀ (F := F)) Variants.none c none) E
          (cc0__slstm_kernel i arg1 harg1 arg2 harg2 arg3 harg3 arg4 harg4 arg5 harg5 arg6 harg6 arg7 harg7 arg8 harg8 arg9 harg9 arg10 harg10 arg11 harg11) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (stored_covers _)
  isplitl [H8]
  · iexists _; isplitr
    swap; · iexact H8
    ipureintro
    exact View.read_writes_eq_canon _ _ _ (stored_covers _)
  isplitl [H9]
  · iexists _; isplitr
    swap; · iexact H9
    ipureintro
    exact View.read_writes_eq_canon _ _ _ (stored_covers _)
  iexists _; isplitr
  swap; · iexact H10
  ipureintro
  exact View.read_writes_eq_canon _ _ _ (stored_covers _)

/-! ## The region's proof data -/

/-- On core c: the arrays as the region finds them; after the body at point t each input's buffer still at
    its block and each result's at the block the body stored; the scoped rest and the generator register
    untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => leftH (blockAt m c 0 t) (blockAt m c 1 t) (blockAt m c 2 t) (blockAt m c 3 t) (blockAt m c 4 t) (blockAt m c 5 t) (blockAt m c 6 t)
    | ⟨8, _⟩ => leftC (blockAt m c 0 t) (blockAt m c 1 t) (blockAt m c 2 t) (blockAt m c 3 t) (blockAt m c 5 t) (blockAt m c 6 t)
    | ⟨9, _⟩ => leftM (blockAt m c 0 t) (blockAt m c 1 t) (blockAt m c 3 t) (blockAt m c 5 t) (blockAt m c 6 t)
    | ⟨10, _⟩ => leftN (blockAt m c 0 t) (blockAt m c 1 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = leftH (blockAt m c 0 t) (blockAt m c 1 t) (blockAt m c 2 t) (blockAt m c 3 t) (blockAt m c 4 t) (blockAt m c 5 t) (blockAt m c 6 t) := by dsimp only [dats]
theorem after8 (c : Dev nD) (t : Fin cfg0.N) : (dats m 0 c).after 8 t = leftC (blockAt m c 0 t) (blockAt m c 1 t) (blockAt m c 2 t) (blockAt m c 3 t) (blockAt m c 5 t) (blockAt m c 6 t) := by dsimp only [dats]
theorem after9 (c : Dev nD) (t : Fin cfg0.N) : (dats m 0 c).after 9 t = leftM (blockAt m c 0 t) (blockAt m c 1 t) (blockAt m c 3 t) (blockAt m c 5 t) (blockAt m c 6 t) := by dsimp only [dats]
theorem after10 (c : Dev nD) (t : Fin cfg0.N) : (dats m 0 c).after 10 t = leftN (blockAt m c 0 t) (blockAt m c 1 t) (blockAt m c 3 t) (blockAt m c 4 t) (blockAt m c 5 t) (blockAt m c 6 t) := by dsimp only [dats]

theorem found0 (c : Dev nD) (t : Fin cfg0.N) (d) : (dats m 0 c).before 0 t d = blockAt m c 0 t :=
  found0_of m (dats m 0 c) (A_eq m c 0) (after0 m c) t d
theorem found1 (c : Dev nD) (t : Fin cfg0.N) (d) : (dats m 0 c).before 1 t d = blockAt m c 1 t :=
  found1_of m (dats m 0 c) (A_eq m c 1) (after1 m c) t d
theorem found2 (c : Dev nD) (t : Fin cfg0.N) (d) : (dats m 0 c).before 2 t d = blockAt m c 2 t :=
  found2_of m (dats m 0 c) (A_eq m c 2) (after2 m c) t d
theorem found3 (c : Dev nD) (t : Fin cfg0.N) (d) : (dats m 0 c).before 3 t d = blockAt m c 3 t :=
  found3_of m (dats m 0 c) (A_eq m c 3) (after3 m c) t d
theorem found4 (c : Dev nD) (t : Fin cfg0.N) (d) : (dats m 0 c).before 4 t d = blockAt m c 4 t :=
  found4_of m (dats m 0 c) (A_eq m c 4) (after4 m c) t d
theorem found5 (c : Dev nD) (t : Fin cfg0.N) (d) : (dats m 0 c).before 5 t d = blockAt m c 5 t :=
  found5_of m (dats m 0 c) (A_eq m c 5) (after5 m c) t d
theorem found6 (c : Dev nD) (t : Fin cfg0.N) (d) : (dats m 0 c).before 6 t d = blockAt m c 6 t :=
  found6_of m (dats m 0 c) (A_eq m c 6) (after6 m c) t d

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any values, from any memory with zero counters: every weakly fair execution of @main terminates, and at the
    end every window's array holds what the write-backs of the stored blocks make of its entry contents, and every
    other unscoped buffer what the region found in it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- In a final state of the run the thirteen argument arrays are as launched: an argument a window stages is an input
    window's array, which the write-backs leave alone; the others bypass the region; and the host operations wrote none
    of them. -/
theorem kept_at (r : PUnit × MemSt nD τ sig (Elt F)) (h : Pipeline.FramePost cfgs (dats m) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).1 0).trans (((dats m 0 c).arrAt_in 0 rfl _).trans ((A_eq m c 0).trans (entry_of_not_written m c main_arg0 (by decide)))),
    ((h c).1 1).trans (((dats m 0 c).arrAt_in 1 rfl _).trans ((A_eq m c 1).trans (entry_of_not_written m c main_arg1 (by decide)))),
    ((h c).1 2).trans (((dats m 0 c).arrAt_in 2 rfl _).trans ((A_eq m c 2).trans (entry_of_not_written m c main_arg2 (by decide)))),
    ((h c).1 3).trans (((dats m 0 c).arrAt_in 3 rfl _).trans ((A_eq m c 3).trans (entry_of_not_written m c main_arg3 (by decide)))),
    ((h c).1 4).trans (((dats m 0 c).arrAt_in 4 rfl _).trans ((A_eq m c 4).trans (entry_of_not_written m c main_arg4 (by decide)))),
    ((h c).2 main_arg5 (Pipeline.mem_restRefs_of main_arg5 (by decide) (by decide))).trans (entry_of_not_written m c main_arg5 (by decide)),
    ((h c).2 main_arg6 (Pipeline.mem_restRefs_of main_arg6 (by decide) (by decide))).trans (entry_of_not_written m c main_arg6 (by decide)),
    ((h c).2 main_arg7 (Pipeline.mem_restRefs_of main_arg7 (by decide) (by decide))).trans (entry_of_not_written m c main_arg7 (by decide)),
    ((h c).2 main_arg8 (Pipeline.mem_restRefs_of main_arg8 (by decide) (by decide))).trans (entry_of_not_written m c main_arg8 (by decide)),
    ((h c).2 main_arg9 (Pipeline.mem_restRefs_of main_arg9 (by decide) (by decide))).trans (entry_of_not_written m c main_arg9 (by decide)),
    ((h c).2 main_arg10 (Pipeline.mem_restRefs_of main_arg10 (by decide) (by decide))).trans (entry_of_not_written m c main_arg10 (by decide)),
    ((h c).2 main_arg11 (Pipeline.mem_restRefs_of main_arg11 (by decide) (by decide))).trans (entry_of_not_written m c main_arg11 (by decide)),
    ((h c).2 main_arg12 (Pipeline.mem_restRefs_of main_arg12 (by decide) (by decide))).trans (entry_of_not_written m c main_arg12 (by decide))⟩

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_at m r h c) (run_main m ρ)

end Cert.Kernel.Region

end
-- ==== Proof.IdealRegion.lean ====
/-
  The program runs to the end and leaves its thirteen argument arrays as they were; and what each of
  its four result arrays then holds.

  @main is eight host operations (four transposes, a four-piece concatenate and its change of format:
  the fused weight; a four-piece concatenate and its reshape: the fused bias) and then one region on a
  grid of 16 points. None of the eight writes an argument array, so the region finds every argument
  as launched. At point t the body reads the t-th 256-row block of x and of the four states, the whole
  fused weight (in two loads: its rows 0..511 and its rows 512..1535) and the whole fused bias, and stores
  four whole 256×1024 blocks, each a pure function of what it read (it also loads each result buffer
  once before storing into it, and uses none of those values). So after the body each result's staging
  buffer holds that function of the input blocks at the point, whatever it held before, and the launch
  theorem for a region whose body keeps nothing from point to point gives the run.
-/
import proofs.«410458_j35450660061940_3_alg».proof.Proof.Gen.KernelIdeal.Launch
import proofs.«410458_j35450660061940_3_alg».proof.Proof.Gen.KernelIdeal.Skeleton
import proofs.«410458_j35450660061940_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents run through the eight host operations. -/
abbrev entry (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The buffers the host operations write: the eight intermediate values. -/
abbrev written : List (Ref sig .tc) := [main_v0, main_v1, main_v2, main_v3, main_v4, main_v5, main_v6, main_v7]

theorem hostOps0_writes : (hostOps0 : List (HloOp τ sig (Elt F))).Forall fun op =>
    op.writes ⊆ (written.map (Proc.devRef (τ := τ) .tc)).toFinset := by
  simp only [hostOps0, written, List.Forall, StableHlo.unary_writes, StableHlo.nary_writes, StableHlo.reshape_writes,
    Finset.singleton_subset_iff, List.map_cons, List.map_nil, List.toFinset_cons, List.toFinset_nil,
    Finset.mem_insert, Finset.mem_singleton, true_or, or_true, and_self]

/-- A buffer that is none of those eight is found as launched: every argument array is. -/
theorem entry_of_not_written (c : Dev nD) (b : Ref sig .tc) (hb : b ∉ written) :
    entry m c b = m ((c : Thread nD τ).loc b) :=
  StableHlo.after_of_writes_sub hostOps0 (fun b => m (c, b)) hostOps0_writes hb

/-! ## A window's block at a point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Found

variable {c : Dev nD} (dat : Dat τ (Elt F) Unit ℕ (UR sig nD τ) ℕ cfg0 c)

/-! An input window's current staging buffer holds its block at every point, whether the pipeline fetched it
there or the block index has not moved since it did (the fused weight and bias are fetched once, at the
first point) — for any proof data over the entry contents whose body leaves the input blocks in place. -/

theorem found0_of (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of (hA : dat.A 6 = entry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

end Found

/-! ## What the body leaves in each result's staging buffer -/

/-- The rectangles the body reads and writes through: a whole x-block, a whole state block, the first 512 and
    the last 1024 rows of the fused weight, the whole fused bias. -/
abbrev rX : Rect S256x512 := Rect.unit (s := S256x512) ![0, 0] S256x512.size Gen.inb_S256x512_S256x512_0_0
abbrev rS : Rect S256x1024 := Rect.unit (s := S256x1024) ![0, 0] S256x1024.size Gen.inb_S256x1024_S256x1024_0_0
abbrev rWx : Rect S1536x4096 := Rect.unit (s := S1536x4096) ![0, 0] S512x4096.size Gen.inb_S1536x4096_S512x4096_0_0
abbrev rWh : Rect S1536x4096 := Rect.unit (s := S1536x4096) ![512, 0] S1024x4096.size Gen.inb_S1536x4096_S1024x4096_512_0
abbrev rB : Rect S1x4096 := Rect.unit (s := S1x4096) ![0, 0] S1x4096.size Gen.inb_S1x4096_S1x4096_0_0

section Left

variable (x0 : Vec F S256x512 .f32) (x1 x2 x3 x4 : Vec F S256x1024 .f32) (x5 : Vec F S1536x4096 .bf16) (x6 : Vec F S1x4096 .f32)

/-- From the contents of the seven input buffers (x, h, c, m, n blocks; fused weight; fused bias): what the one
    store into each result buffer leaves there — the hidden, cell, stabiliser and normaliser blocks. -/
def leftH : Vec F S256x1024 .f32 :=
  View.canon [⟨rS, k0_pay9 (View.ld x0 rX) (View.ld x1 rS) (View.ld x5 rWx) (View.ld x5 rWh) (View.ld x6 rB) (View.ld x3 rS) (View.ld x2 rS) (View.ld x4 rS)⟩]
def leftC : Vec F S256x1024 .f32 :=
  View.canon [⟨rS, k0_pay7 (View.ld x0 rX) (View.ld x1 rS) (View.ld x5 rWx) (View.ld x5 rWh) (View.ld x6 rB) (View.ld x3 rS) (View.ld x2 rS)⟩]
def leftM : Vec F S256x1024 .f32 :=
  View.canon [⟨rS, k0_pay4 (View.ld x0 rX) (View.ld x1 rS) (View.ld x5 rWx) (View.ld x5 rWh) (View.ld x6 rB) (View.ld x3 rS)⟩]
def leftN : Vec F S256x1024 .f32 :=
  View.canon [⟨rS, k0_pay8 (View.ld x0 rX) (View.ld x1 rS) (View.ld x5 rWx) (View.ld x5 rWh) (View.ld x6 rB) (View.ld x3 rS) (View.ld x4 rS)⟩]

end Left

/-- One store of a whole block covers the buffer. -/
theorem stored_covers (p0 : Vec F S256x1024 .f32) (y : S256x1024.Idx) :
    ∃ pc ∈ ([⟨rS, p0⟩] : List (View.Piece (Elt F) S256x1024 .f32)), y ∈ pc.1.set :=
  View.cover_of_tiled [⟨rS, p0⟩] S256x1024.size (by rfl) y

/-! ## The body's triple -/

set_option maxHeartbeats 4000000 in
/-- The body on whole staging memrefs, the seven inputs' at read contents x0 … x6 and the four results' at anything,
    runs to the continuation holding the inputs' as they were and the results' at the four stored blocks. -/
theorem body_triple (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1536x4096 .bf16) (harg6 : arg6.IsWhole)
    (arg7 : Memref sig .tc .vmem S1x4096 .f32) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S256x1024 .f32) (harg10 : arg10.IsWhole)
    (arg11 : Memref sig .tc .vmem S256x1024 .f32) (harg11 : arg11.IsWhole)
    (x0 : Vec F S256x512 .f32) (x1 x2 x3 x4 : Vec F S256x1024 .f32) (x5 : Vec F S1536x4096 .bf16) (x6 : Vec F S1x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6
            ∗ owns (c : Thread nD τ) arg8 fullShare (leftH x0 x1 x2 x3 x4 x5 x6) ∗ owns (c : Thread nD τ) arg9 fullShare (leftC x0 x1 x2 x3 x5 x6)
            ∗ owns (c : Thread nD τ) arg10 fullShare (leftM x0 x1 x3 x5 x6) ∗ owns (c : Thread nD τ) arg11 fullShare (leftN x0 x1 x3 x4 x5 x6)) -∗ K ⟨⟩))
      ⊢ wp frame (wpE (defs₀ (F := F)) Variants.none c none) E
          (cc0__slstm_kernel i arg1 harg1 arg2 harg2 arg3 harg3 arg4 harg4 arg5 harg5 arg6 harg6 arg7 harg7 arg8 harg8 arg9 harg9 arg10 harg10 arg11 harg11) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (stored_covers _)
  isplitl [H8]
  · iexists _; isplitr
    swap; · iexact H8
    ipureintro
    exact View.read_writes_eq_canon _ _ _ (stored_covers _)
  isplitl [H9]
  · iexists _; isplitr
    swap; · iexact H9
    ipureintro
    exact View.read_writes_eq_canon _ _ _ (stored_covers _)
  iexists _; isplitr
  swap; · iexact H10
  ipureintro
  exact View.read_writes_eq_canon _ _ _ (stored_covers _)

/-! ## The region's proof data -/

/-- On core c: the arrays as the region finds them; after the body at point t each input's buffer still at
    its block and each result's at the block the body stored; the scoped rest and the generator register
    untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => leftH (blockAt m c 0 t) (blockAt m c 1 t) (blockAt m c 2 t) (blockAt m c 3 t) (blockAt m c 4 t) (blockAt m c 5 t) (blockAt m c 6 t)
    | ⟨8, _⟩ => leftC (blockAt m c 0 t) (blockAt m c 1 t) (blockAt m c 2 t) (blockAt m c 3 t) (blockAt m c 5 t) (blockAt m c 6 t)
    | ⟨9, _⟩ => leftM (blockAt m c 0 t) (blockAt m c 1 t) (blockAt m c 3 t) (blockAt m c 5 t) (blockAt m c 6 t)
    | ⟨10, _⟩ => leftN (blockAt m c 0 t) (blockAt m c 1 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = leftH (blockAt m c 0 t) (blockAt m c 1 t) (blockAt m c 2 t) (blockAt m c 3 t) (blockAt m c 4 t) (blockAt m c 5 t) (blockAt m c 6 t) := by dsimp only [dats]
theorem after8 (c : Dev nD) (t : Fin cfg0.N) : (dats m 0 c).after 8 t = leftC (blockAt m c 0 t) (blockAt m c 1 t) (blockAt m c 2 t) (blockAt m c 3 t) (blockAt m c 5 t) (blockAt m c 6 t) := by dsimp only [dats]
theorem after9 (c : Dev nD) (t : Fin cfg0.N) : (dats m 0 c).after 9 t = leftM (blockAt m c 0 t) (blockAt m c 1 t) (blockAt m c 3 t) (blockAt m c 5 t) (blockAt m c 6 t) := by dsimp only [dats]
theorem after10 (c : Dev nD) (t : Fin cfg0.N) : (dats m 0 c).after 10 t = leftN (blockAt m c 0 t) (blockAt m c 1 t) (blockAt m c 3 t) (blockAt m c 4 t) (blockAt m c 5 t) (blockAt m c 6 t) := by dsimp only [dats]

theorem found0 (c : Dev nD) (t : Fin cfg0.N) (d) : (dats m 0 c).before 0 t d = blockAt m c 0 t :=
  found0_of m (dats m 0 c) (A_eq m c 0) (after0 m c) t d
theorem found1 (c : Dev nD) (t : Fin cfg0.N) (d) : (dats m 0 c).before 1 t d = blockAt m c 1 t :=
  found1_of m (dats m 0 c) (A_eq m c 1) (after1 m c) t d
theorem found2 (c : Dev nD) (t : Fin cfg0.N) (d) : (dats m 0 c).before 2 t d = blockAt m c 2 t :=
  found2_of m (dats m 0 c) (A_eq m c 2) (after2 m c) t d
theorem found3 (c : Dev nD) (t : Fin cfg0.N) (d) : (dats m 0 c).before 3 t d = blockAt m c 3 t :=
  found3_of m (dats m 0 c) (A_eq m c 3) (after3 m c) t d
theorem found4 (c : Dev nD) (t : Fin cfg0.N) (d) : (dats m 0 c).before 4 t d = blockAt m c 4 t :=
  found4_of m (dats m 0 c) (A_eq m c 4) (after4 m c) t d
theorem found5 (c : Dev nD) (t : Fin cfg0.N) (d) : (dats m 0 c).before 5 t d = blockAt m c 5 t :=
  found5_of m (dats m 0 c) (A_eq m c 5) (after5 m c) t d
theorem found6 (c : Dev nD) (t : Fin cfg0.N) (d) : (dats m 0 c).before 6 t d = blockAt m c 6 t :=
  found6_of m (dats m 0 c) (A_eq m c 6) (after6 m c) t d

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any values, from any memory with zero counters: every weakly fair execution of @main terminates, and at the
    end every window's array holds what the write-backs of the stored blocks make of its entry contents, and every
    other unscoped buffer what the region found in it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- In a final state of the run the thirteen argument arrays are as launched: an argument a window stages is an input
    window's array, which the write-backs leave alone; the others bypass the region; and the host operations wrote none
    of them. -/
theorem kept_at (r : PUnit × MemSt nD τ sig (Elt F)) (h : Pipeline.FramePost cfgs (dats m) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).1 0).trans (((dats m 0 c).arrAt_in 0 rfl _).trans ((A_eq m c 0).trans (entry_of_not_written m c main_arg0 (by decide)))),
    ((h c).1 1).trans (((dats m 0 c).arrAt_in 1 rfl _).trans ((A_eq m c 1).trans (entry_of_not_written m c main_arg1 (by decide)))),
    ((h c).1 2).trans (((dats m 0 c).arrAt_in 2 rfl _).trans ((A_eq m c 2).trans (entry_of_not_written m c main_arg2 (by decide)))),
    ((h c).1 3).trans (((dats m 0 c).arrAt_in 3 rfl _).trans ((A_eq m c 3).trans (entry_of_not_written m c main_arg3 (by decide)))),
    ((h c).1 4).trans (((dats m 0 c).arrAt_in 4 rfl _).trans ((A_eq m c 4).trans (entry_of_not_written m c main_arg4 (by decide)))),
    ((h c).2 main_arg5 (Pipeline.mem_restRefs_of main_arg5 (by decide) (by decide))).trans (entry_of_not_written m c main_arg5 (by decide)),
    ((h c).2 main_arg6 (Pipeline.mem_restRefs_of main_arg6 (by decide) (by decide))).trans (entry_of_not_written m c main_arg6 (by decide)),
    ((h c).2 main_arg7 (Pipeline.mem_restRefs_of main_arg7 (by decide) (by decide))).trans (entry_of_not_written m c main_arg7 (by decide)),
    ((h c).2 main_arg8 (Pipeline.mem_restRefs_of main_arg8 (by decide) (by decide))).trans (entry_of_not_written m c main_arg8 (by decide)),
    ((h c).2 main_arg9 (Pipeline.mem_restRefs_of main_arg9 (by decide) (by decide))).trans (entry_of_not_written m c main_arg9 (by decide)),
    ((h c).2 main_arg10 (Pipeline.mem_restRefs_of main_arg10 (by decide) (by decide))).trans (entry_of_not_written m c main_arg10 (by decide)),
    ((h c).2 main_arg11 (Pipeline.mem_restRefs_of main_arg11 (by decide) (by decide))).trans (entry_of_not_written m c main_arg11 (by decide)),
    ((h c).2 main_arg12 (Pipeline.mem_restRefs_of main_arg12 (by decide) (by decide))).trans (entry_of_not_written m c main_arg12 (by decide))⟩

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_at m r h c) (run_main m ρ)

end Cert.KernelIdeal.Region

end
-- ==== Proof.Cell.lean ====
/-
  The sLSTM cell on the extended reals, one element at a time.

  For a batch row r and a hidden unit j, each of the four gates has the pre-activation
      pre W b r j = Σ_{k<512} x[r,k]·W[j,k] + Σ_{k<1024} h[r,k]·W[j,512+k] + b[j],
  the row j of W against the row r of x and the row r of h laid side by side. With
  li, lf, z, o the four pre-activations (input, forget, cell, output gates) and mp, cp, np the
  previous stabiliser, cell and normaliser states at (r, j):
      m' = max (lf + mp) li
      i  = exp (li − m'),   f = exp (lf + mp − m')
      c' = f·cp + i·tanh z,  n' = f·np + i
      h' = σ(o) · (c' / n'),  σ(o) = 1 / (1 + exp (−o)).
  Sums are finite sums in the extended reals (a commutative additive monoid), so splitting the
  index range 0..1535 at 512 needs no finiteness of the entries.
-/
import Idealize.ShloMosaic.PureOps.Ideal
import Idealize.ShloMosaic.Lib.ValueIdx

noncomputable section

open scoped BigOperators

namespace Slstm

open Idealize.ShloMosaic Idealize.ShloMosaic.ValueIdx

/-- The shapes of the arguments: x, the four states, a gate's weight, a gate's bias. -/
abbrev Sx : Shape := ⟨2, ![4096, 512]⟩
abbrev Ss : Shape := ⟨2, ![4096, 1024]⟩
abbrev Sw : Shape := ⟨2, ![1024, 1536]⟩
abbrev Sb : Shape := ⟨1, ![1024]⟩

/-- Column k of the x-part of a weight row, and column k of its h-part, among the 1536 columns. -/
def lo (k : Fin 512) : Fin 1536 := ⟨k.val, by omega⟩
def hi (k : Fin 1024) : Fin 1536 := ⟨512 + k.val, by omega⟩

@[simp] theorem lo_val (k : Fin 512) : (lo k).val = k.val := rfl
@[simp] theorem hi_val (k : Fin 1024) : (hi k).val = 512 + k.val := rfl

/-- A sum over the 1536 columns is the sum over the x-part plus the sum over the h-part. -/
theorem sum_lo_hi {M : Type*} [AddCommMonoid M] (f : Fin 1536 → M) :
    ∑ k : Fin 1536, f k = ∑ k : Fin 512, f (lo k) + ∑ k : Fin 1024, f (hi k) :=
  Fin.sum_univ_add (a := 512) (b := 1024) f

/-- A row of x against a vector, a row of h against a vector, and a bias: one pre-activation from
    its three ingredients, however the two vectors are stored. -/
def dotRows (xr wx : Fin 512 → EReal) (hr wh : Fin 1024 → EReal) (b : EReal) : EReal :=
  (∑ k : Fin 512, xr k * wx k) + (∑ k : Fin 1024, hr k * wh k) + b

/-- A gate's pre-activation at (r, j) from the argument arrays. -/
def pre (x : Sx.Idx → EReal) (h : Ss.Idx → EReal) (W : Sw.Idx → EReal) (b : Sb.Idx → EReal)
    (r : Fin 4096) (j : Fin 1024) : EReal :=
  dotRows (fun k => x (ix2 r k)) (fun k => W (ix2 j (lo k))) (fun k => h (ix2 r k)) (fun k => W (ix2 j (hi k))) (b (ix1 j))

/-- The new stabiliser, the two stabilised gates, and the new cell, normaliser and hidden values. -/
def mNew (li lf mp : EReal) : EReal := max (lf + mp) li
def iGate (li lf mp : EReal) : EReal := Ideal.exp (li - mNew li lf mp)
def fGate (li lf mp : EReal) : EReal := Ideal.exp (lf + mp - mNew li lf mp)
def cNew (li lf z mp cp : EReal) : EReal := fGate li lf mp * cp + iGate li lf mp * Ideal.tanh z
def nNew (li lf mp np : EReal) : EReal := fGate li lf mp * np + iGate li lf mp
def hNew (li lf z o mp cp np : EReal) : EReal :=
  Ideal.logistic o * Ideal.div (cNew li lf z mp cp) (nNew li lf mp np)

/-! The four results as whole arrays. Each takes all thirteen arguments, in the program's order
(x, h, c, m, n, then weight and bias of the input, forget, cell and output gates), whether or not it
depends on every one of them. -/

def outM (x : Sx.Idx → EReal) (h c m n : Ss.Idx → EReal)
    (Wi : Sw.Idx → EReal) (bi : Sb.Idx → EReal) (Wf : Sw.Idx → EReal) (bf : Sb.Idx → EReal)
    (Wz : Sw.Idx → EReal) (bz : Sb.Idx → EReal) (Wo : Sw.Idx → EReal) (bo : Sb.Idx → EReal) : Ss.Idx → EReal := fun i =>
  mNew (pre x h Wi bi (i 0) (i 1)) (pre x h Wf bf (i 0) (i 1)) (m i)
def outC (x : Sx.Idx → EReal) (h c m n : Ss.Idx → EReal)
    (Wi : Sw.Idx → EReal) (bi : Sb.Idx → EReal) (Wf : Sw.Idx → EReal) (bf : Sb.Idx → EReal)
    (Wz : Sw.Idx → EReal) (bz : Sb.Idx → EReal) (Wo : Sw.Idx → EReal) (bo : Sb.Idx → EReal) : Ss.Idx → EReal := fun i =>
  cNew (pre x h Wi bi (i 0) (i 1)) (pre x h Wf bf (i 0) (i 1)) (pre x h Wz bz (i 0) (i 1)) (m i) (c i)
def outN (x : Sx.Idx → EReal) (h c m n : Ss.Idx → EReal)
    (Wi : Sw.Idx → EReal) (bi : Sb.Idx → EReal) (Wf : Sw.Idx → EReal) (bf : Sb.Idx → EReal)
    (Wz : Sw.Idx → EReal) (bz : Sb.Idx → EReal) (Wo : Sw.Idx → EReal) (bo : Sb.Idx → EReal) : Ss.Idx → EReal := fun i =>
  nNew (pre x h Wi bi (i 0) (i 1)) (pre x h Wf bf (i 0) (i 1)) (m i) (n i)
def outH (x : Sx.Idx → EReal) (h c m n : Ss.Idx → EReal)
    (Wi : Sw.Idx → EReal) (bi : Sb.Idx → EReal) (Wf : Sw.Idx → EReal) (bf : Sb.Idx → EReal)
    (Wz : Sw.Idx → EReal) (bz : Sb.Idx → EReal) (Wo : Sw.Idx → EReal) (bo : Sb.Idx → EReal) : Ss.Idx → EReal := fun i =>
  hNew (pre x h Wi bi (i 0) (i 1)) (pre x h Wf bf (i 0) (i 1)) (pre x h Wz bz (i 0) (i 1))
    (pre x h Wo bo (i 0) (i 1)) (m i) (c i) (n i)

end Slstm

end
-- ==== Proof.KernelCell.lean ====
/-
  The kernel's arithmetic at one element of a block, and the fused operands at one element.

  The body computes, from a 256-row block of x and of the four states and from the fused weight and
  bias, four 256×1024 blocks. At row p and unit q of a block the four pre-activations are the columns
  q, 1024+q, 2048+q, 3072+q of (x-block · rows 0..511 of the fused weight) + (h-block · rows 512..1535)
  + fused bias, and the rest is the cell of Cell.lean. The fused weight's column 1024·g+q is the row q
  of gate g's weight, and the fused bias there is gate g's bias at q.
-/
import proofs.«410458_j35450660061940_3_alg».proof.Proof.Gen.KernelIdeal.Skeleton
import proofs.«410458_j35450660061940_3_alg».proof.Proof.Gen.KernelIdeal.Launch
import proofs.«410458_j35450660061940_3_alg».proof.Proof.Cell
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.CellValue

open Cert.KernelIdeal Cert.KernelIdeal.Gen Idealize.ShloMosaic Idealize.ShloMosaic.TcCoe Idealize.SL.Sem
open Idealize.ShloMosaic.ValueIdx

/-- The column of gate g's unit q among the 4096 fused columns. -/
def col (g : Fin 4) (q : Fin 1024) : Fin 4096 := ⟨1024 * g.val + q.val, by omega⟩

@[simp] theorem col_val (g : Fin 4) (q : Fin 1024) : (col g q).val = 1024 * g.val + q.val := rfl

/-- Gate g's pre-activation at row p, unit q of a block, from the vectors the body loads: the x-block,
    the h-block, the fused weight's first 512 rows, its last 1024 rows, the fused bias. -/
def blkPre (v0 : Vec Ideal S256x512 .f32) (v1 : Vec Ideal S256x1024 .f32) (v4 : Vec Ideal S512x4096 .bf16)
    (v6 : Vec Ideal S1024x4096 .bf16) (v11 : Vec Ideal S1x4096 .f32) (g : Fin 4) (p : Fin 256) (q : Fin 1024) : EReal :=
  Slstm.dotRows (fun k => v0 (ix2 p k)) (fun k => v4 (ix2 k (col g q))) (fun k => v1 (ix2 p k))
    (fun k => v6 (ix2 k (col g q))) (v11 (ix2 (0 : Fin 1) (col g q)))

/-! ## The two products read at one element

Each of the body's two products contracts the one inner axis: its element at row p, column j is the
sum over that axis of the left operand's row p against the right operand's column j. -/

section Products

/-- The x-product's left index keeps the output's row. -/
theorem lhs_x_0 (i : S256x4096.Idx) (k : dot_S256x512_S512x4096_S256x4096_1_0_0_1_n_n.contr.Idx) :
    (dot_S256x512_S512x4096_S256x4096_1_0_0_1_n_n.lhsIdx i k 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
/-- The x-product's left index runs along the contracted axis. -/
theorem lhs_x_1 (i : S256x4096.Idx) (k : dot_S256x512_S512x4096_S256x4096_1_0_0_1_n_n.contr.Idx) :
    (dot_S256x512_S512x4096_S256x4096_1_0_0_1_n_n.lhsIdx i k 1).val = (k ⟨0, by decide⟩).val :=
  dot_S256x512_S512x4096_S256x4096_1_0_0_1_n_n.lhsIdx_val_of_single rfl i k
/-- The x-product's right index runs along the contracted axis. -/
theorem rhs_x_0 (i : S256x4096.Idx) (k : dot_S256x512_S512x4096_S256x4096_1_0_0_1_n_n.contr.Idx) :
    (dot_S256x512_S512x4096_S256x4096_1_0_0_1_n_n.rhsIdx i k 0).val = (k ⟨0, by decide⟩).val :=
  dot_S256x512_S512x4096_S256x4096_1_0_0_1_n_n.rhsIdx_val_of_single rfl i k
/-- The x-product's right index keeps the output's column. -/
theorem rhs_x_1 (i : S256x4096.Idx) (k : dot_S256x512_S512x4096_S256x4096_1_0_0_1_n_n.contr.Idx) :
    (dot_S256x512_S512x4096_S256x4096_1_0_0_1_n_n.rhsIdx i k 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The x-product into the zero accumulator, at row p and column j. -/
theorem xdot_apply (a : FVec Ideal S256x512 .bf16) (w : FVec Ideal S512x4096 .bf16) (p : Fin 256) (j : Fin 4096) :
    matmul (F := Ideal) dot_S256x512_S512x4096_S256x4096_1_0_0_1_n_n none a w (constant (F := Ideal) S256x4096 .f32 0x00000000#32) (ix2 p j)
      = ∑ k : Fin 512, a (ix2 p k) * w (ix2 k j) := by
  simp only [matmul]
  rw [Ideal.matmul_constant_zero_apply, ← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p j) ((contrEquiv1 dot_S256x512_S512x4096_S256x4096_1_0_0_1_n_n 512 rfl rfl).symm k) = ix2 p k := funext fun b => Fin.ext (by
    match b with
    | ⟨0, _⟩ => exact lhs_x_0 _ _
    | ⟨1, _⟩ => exact (lhs_x_1 _ _).trans hk)
  have er : dot_S256x512_S512x4096_S256x4096_1_0_0_1_n_n.rhsIdx (ix2 p j) ((contrEquiv1 dot_S256x512_S512x4096_S256x4096_1_0_0_1_n_n 512 rfl rfl).symm k) = ix2 k j := funext fun b => Fin.ext (by
    match b with
    | ⟨0, _⟩ => exact (rhs_x_0 _ _).trans hk
    | ⟨1, _⟩ => exact rhs_x_1 _ _)
  rw [el, er]

/-- The h-product's left index keeps the output's row. -/
theorem lhs_h_0 (i : S256x4096.Idx) (k : dot_S256x1024_S1024x4096_S256x4096_1_0_0_1_n_n.contr.Idx) :
    (dot_S256x1024_S1024x4096_S256x4096_1_0_0_1_n_n.lhsIdx i k 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- The h-product's left index runs along the contracted axis. -/
theorem lhs_h_1 (i : S256x4096.Idx) (k : dot_S256x1024_S1024x4096_S256x4096_1_0_0_1_n_n.contr.Idx) :
    (dot_S256x1024_S1024x4096_S256x4096_1_0_0_1_n_n.lhsIdx i k 1).val = (k ⟨0, by decide⟩).val :=
  dot_S256x1024_S1024x4096_S256x4096_1_0_0_1_n_n.lhsIdx_val_of_single rfl i k
/-- The h-product's right index runs along the contracted axis. -/
theorem rhs_h_0 (i : S256x4096.Idx) (k : dot_S256x1024_S1024x4096_S256x4096_1_0_0_1_n_n.contr.Idx) :
    (dot_S256x1024_S1024x4096_S256x4096_1_0_0_1_n_n.rhsIdx i k 0).val = (k ⟨0, by decide⟩).val :=
  dot_S256x1024_S1024x4096_S256x4096_1_0_0_1_n_n.rhsIdx_val_of_single rfl i k
/-- The h-product's right index keeps the output's column. -/
theorem rhs_h_1 (i : S256x4096.Idx) (k : dot_S256x1024_S1024x4096_S256x4096_1_0_0_1_n_n.contr.Idx) :
    (dot_S256x1024_S1024x4096_S256x4096_1_0_0_1_n_n.rhsIdx i k 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The h-product into the zero accumulator, at row p and column j. -/
theorem hdot_apply (a : FVec Ideal S256x1024 .bf16) (w : FVec Ideal S1024x4096 .bf16) (p : Fin 256) (j : Fin 4096) :
    matmul (F := Ideal) dot_S256x1024_S1024x4096_S256x4096_1_0_0_1_n_n none a w (constant (F := Ideal) S256x4096 .f32 0x00000000#32) (ix2 p j)
      = ∑ k : Fin 1024, a (ix2 p k) * w (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun b => Fin.ext (by
    match b with
    | ⟨0, _⟩ => exact lhs_h_0 _ _
    | ⟨1, _⟩ => exact (lhs_h_1 _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun b => Fin.ext (by
    match b with
    | ⟨0, _⟩ => exact (rhs_h_0 _ _).trans hk
    | ⟨1, _⟩ => exact rhs_h_1 _ _)
  rw [el, er]

end Products

/-! ## The body's payloads at one element -/

section Payloads

variable (v0 : Vec Ideal S256x512 .f32) (v1 : Vec Ideal S256x1024 .f32) (v4 : Vec Ideal S512x4096 .bf16)
  (v6 : Vec Ideal S1024x4096 .bf16) (v11 : Vec Ideal S1x4096 .f32) (v19 v29 v30 : Vec Ideal S256x1024 .f32)
  (p : Fin 256) (q : Fin 1024)

/-- The four pre-activations side by side, at row p and gate g's column q: the x-block's row p against
    the column of the weight's first 512 rows, plus the h-block's row p against the column of its last
    1024 rows, plus the bias row there. The narrowing of the two blocks and the three casts to the same
    shape change no value. -/
theorem pay1_apply (g : Fin 4) :
    k0_pay1 (F := Ideal) v0 v1 v4 v6 v11 (ix2 p (col g q)) = blkPre v0 v1 v4 v6 v11 g p q := by
  unfold k0_pay1 blkPre Slstm.dotRows
  dsimp only
  rw [addf_apply, addf_apply, xdot_apply, hdot_apply, shapeCast_self, shapeCast_self, shapeCast_self]
  rw [broadcastTo_apply v11 broadcasts_S1x4096_S256x4096 (ix2 p (col g q)) (ix2 (0 : Fin 1) (col g q)) (fun a => match a with
    | ⟨0, _⟩ => by show (0 : Nat) = if (1 : Nat) = 1 then 0 else _; rw [if_pos rfl]
    | ⟨1, _⟩ => by show (col g q).val = if (4096 : Nat) = 1 then 0 else (col g q).val; rw [if_neg (by decide)])]
  rfl

/-- Columns 0..1023 are the input gate's. -/
theorem slice0_apply :
    extractStridedSlice S256x1024 ![0, 0] (k0_pay1 (F := Ideal) v0 v1 v4 v6 v11) slices_S256x4096_o0_0_S256x1024 (ix2 p q)
      = blkPre v0 v1 v4 v6 v11 0 p q :=
  (extractStridedSlice_apply ![0, 0] (k0_pay1 (F := Ideal) v0 v1 v4 v6 v11) slices_S256x4096_o0_0_S256x1024 (ix2 p q) (ix2 p (col 0 q))
    (fun a => match a with
      | ⟨0, _⟩ => by show p.val = 0 + p.val; omega
      | ⟨1, _⟩ => by show 1024 * 0 + q.val = 0 + q.val; omega)).trans (pay1_apply v0 v1 v4 v6 v11 p q 0)

/-- Columns 1024..2047 are the forget gate's. -/
theorem slice1_apply :
    extractStridedSlice S256x1024 ![0, 1024] (k0_pay1 (F := Ideal) v0 v1 v4 v6 v11) slices_S256x4096_o0_1024_S256x1024 (ix2 p q)
      = blkPre v0 v1 v4 v6 v11 1 p q :=
  (extractStridedSlice_apply ![0, 1024] (k0_pay1 (F := Ideal) v0 v1 v4 v6 v11) slices_S256x4096_o0_1024_S256x1024 (ix2 p q) (ix2 p (col 1 q))
    (fun a => match a with
      | ⟨0, _⟩ => by show p.val = 0 + p.val; omega
      | ⟨1, _⟩ => by show 1024 * 1 + q.val = 1024 + q.val; omega)).trans (pay1_apply v0 v1 v4 v6 v11 p q 1)

/-- Columns 2048..3071 are the cell gate's. -/
theorem slice2_apply :
    extractStridedSlice S256x1024 ![0, 2048] (k0_pay1 (F := Ideal) v0 v1 v4 v6 v11) slices_S256x4096_o0_2048_S256x1024 (ix2 p q)
      = blkPre v0 v1 v4 v6 v11 2 p q :=
  (extractStridedSlice_apply ![0, 2048] (k0_pay1 (F := Ideal) v0 v1 v4 v6 v11) slices_S256x4096_o0_2048_S256x1024 (ix2 p q) (ix2 p (col 2 q))
    (fun a => match a with
      | ⟨0, _⟩ => by show p.val = 0 + p.val; omega
      | ⟨1, _⟩ => by show 1024 * 2 + q.val = 2048 + q.val; omega)).trans (pay1_apply v0 v1 v4 v6 v11 p q 2)

/-- Columns 3072..4095 are the output gate's. -/
theorem slice3_apply :
    extractStridedSlice S256x1024 ![0, 3072] (k0_pay1 (F := Ideal) v0 v1 v4 v6 v11) slices_S256x4096_o0_3072_S256x1024 (ix2 p q)
      = blkPre v0 v1 v4 v6 v11 3 p q :=
  (extractStridedSlice_apply ![0, 3072] (k0_pay1 (F := Ideal) v0 v1 v4 v6 v11) slices_S256x4096_o0_3072_S256x1024 (ix2 p q) (ix2 p (col 3 q))
    (fun a => match a with
      | ⟨0, _⟩ => by show p.val = 0 + p.val; omega
      | ⟨1, _⟩ => by show 1024 * 3 + q.val = 3072 + q.val; omega)).trans (pay1_apply v0 v1 v4 v6 v11 p q 3)

/-- The input gate's pre-activation block at (p, q). -/
theorem pay2_apply : k0_pay2 (F := Ideal) v0 v1 v4 v6 v11 (ix2 p q) = blkPre v0 v1 v4 v6 v11 0 p q :=
  slice0_apply v0 v1 v4 v6 v11 p q

/-- The forget gate's pre-activation block at (p, q). -/
theorem pay3_apply : k0_pay3 (F := Ideal) v0 v1 v4 v6 v11 (ix2 p q) = blkPre v0 v1 v4 v6 v11 1 p q :=
  slice1_apply v0 v1 v4 v6 v11 p q

/-- The stored stabiliser block at (p, q). -/
theorem pay_m : k0_pay4 (F := Ideal) v0 v1 v4 v6 v11 v19 (ix2 p q)
    = Slstm.mNew (blkPre v0 v1 v4 v6 v11 0 p q) (blkPre v0 v1 v4 v6 v11 1 p q) (v19 (ix2 p q)) := by
  unfold k0_pay4 Slstm.mNew
  show max (k0_pay3 (F := Ideal) v0 v1 v4 v6 v11 (ix2 p q) + v19 (ix2 p q)) (k0_pay2 (F := Ideal) v0 v1 v4 v6 v11 (ix2 p q)) = _
  rw [pay2_apply, pay3_apply]

/-- The stabilised input gate at (p, q): the exponential of the input pre-activation less the new stabiliser. -/
theorem pay5_apply : k0_pay5 (F := Ideal) v0 v1 v4 v6 v11 v19 (ix2 p q)
    = Slstm.iGate (blkPre v0 v1 v4 v6 v11 0 p q) (blkPre v0 v1 v4 v6 v11 1 p q) (v19 (ix2 p q)) := by
  unfold k0_pay5 Slstm.iGate
  show Ideal.exp (k0_pay2 (F := Ideal) v0 v1 v4 v6 v11 (ix2 p q) - k0_pay4 (F := Ideal) v0 v1 v4 v6 v11 v19 (ix2 p q)) = _
  rw [pay2_apply, pay_m]

/-- The stabilised forget gate at (p, q): the exponential of the forget pre-activation plus the old
    stabiliser less the new one. -/
theorem pay6_apply : k0_pay6 (F := Ideal) v0 v1 v4 v6 v11 v19 (ix2 p q)
    = Slstm.fGate (blkPre v0 v1 v4 v6 v11 0 p q) (blkPre v0 v1 v4 v6 v11 1 p q) (v19 (ix2 p q)) := by
  unfold k0_pay6 Slstm.fGate
  show Ideal.exp (k0_pay3 (F := Ideal) v0 v1 v4 v6 v11 (ix2 p q) + v19 (ix2 p q) - k0_pay4 (F := Ideal) v0 v1 v4 v6 v11 v19 (ix2 p q)) = _
  rw [pay3_apply, pay_m]

/-- The stored cell block at (p, q). -/
theorem pay_c : k0_pay7 (F := Ideal) v0 v1 v4 v6 v11 v19 v29 (ix2 p q)
    = Slstm.cNew (blkPre v0 v1 v4 v6 v11 0 p q) (blkPre v0 v1 v4 v6 v11 1 p q) (blkPre v0 v1 v4 v6 v11 2 p q)
        (v19 (ix2 p q)) (v29 (ix2 p q)) := by
  unfold k0_pay7 Slstm.cNew
  show k0_pay6 (F := Ideal) v0 v1 v4 v6 v11 v19 (ix2 p q) * v29 (ix2 p q)
      + k0_pay5 (F := Ideal) v0 v1 v4 v6 v11 v19 (ix2 p q)
        * Ideal.tanh (extractStridedSlice S256x1024 ![0, 2048] (k0_pay1 (F := Ideal) v0 v1 v4 v6 v11) slices_S256x4096_o0_2048_S256x1024 (ix2 p q)) = _
  rw [pay5_apply, pay6_apply, slice2_apply]

/-- The stored normaliser block at (p, q). -/
theorem pay_n : k0_pay8 (F := Ideal) v0 v1 v4 v6 v11 v19 v30 (ix2 p q)
    = Slstm.nNew (blkPre v0 v1 v4 v6 v11 0 p q) (blkPre v0 v1 v4 v6 v11 1 p q) (v19 (ix2 p q)) (v30 (ix2 p q)) := by
  unfold k0_pay8 Slstm.nNew
  show k0_pay6 (F := Ideal) v0 v1 v4 v6 v11 v19 (ix2 p q) * v30 (ix2 p q)
      + k0_pay5 (F := Ideal) v0 v1 v4 v6 v11 v19 (ix2 p q) = _
  rw [pay5_apply, pay6_apply]

/-- The stored hidden block at (p, q). -/
theorem pay_h : k0_pay9 (F := Ideal) v0 v1 v4 v6 v11 v19 v29 v30 (ix2 p q)
    = Slstm.hNew (blkPre v0 v1 v4 v6 v11 0 p q) (blkPre v0 v1 v4 v6 v11 1 p q) (blkPre v0 v1 v4 v6 v11 2 p q)
        (blkPre v0 v1 v4 v6 v11 3 p q) (v19 (ix2 p q)) (v29 (ix2 p q)) (v30 (ix2 p q)) := by
  unfold k0_pay9 Slstm.hNew
  show Ideal.logistic (extractStridedSlice S256x1024 ![0, 3072] (k0_pay1 (F := Ideal) v0 v1 v4 v6 v11) slices_S256x4096_o0_3072_S256x1024 (ix2 p q))
      * Ideal.div (k0_pay7 (F := Ideal) v0 v1 v4 v6 v11 v19 v29 (ix2 p q)) (k0_pay8 (F := Ideal) v0 v1 v4 v6 v11 v19 v30 (ix2 p q)) = _
  rw [slice3_apply, pay_c, pay_n]

end Payloads

/-! ## The fused operands at one element -/

section FusedTerms

/-- A transposed weight at (row, q) is the weight at (q, row). -/
theorem transposeW_apply (x : S1024x1536.Idx → EReal) (row : Fin 1536) (q : Fin 1024) :
    transpose S1536x1024 [1, 0] x transposes_S1024x1536_S1536x1024_1_0 (ix2 row q) = x (ix2 q row) :=
  transpose_apply [1, 0] x transposes_S1024x1536_S1536x1024_1_0 (ix2 row q) (ix2 q row) (fun b => match b with
    | ⟨0, _⟩ => rfl
    | ⟨1, _⟩ => rfl)

/-- Four weights, each transposed, laid side by side along the columns, then narrowed. -/
def fuseW (x0 x1 x2 x3 : S1024x1536.Idx → EReal) : S1536x4096.Idx → EReal :=
  truncf (F := Ideal) .bf16 (concatenate S1536x4096 1
    [⟨S1536x1024, transpose S1536x1024 [1, 0] x0 transposes_S1024x1536_S1536x1024_1_0⟩,
     ⟨S1536x1024, transpose S1536x1024 [1, 0] x1 transposes_S1024x1536_S1536x1024_1_0⟩,
     ⟨S1536x1024, transpose S1536x1024 [1, 0] x2 transposes_S1024x1536_S1536x1024_1_0⟩,
     ⟨S1536x1024, transpose S1536x1024 [1, 0] x3 transposes_S1024x1536_S1536x1024_1_0⟩]
    concatenates_S1536x1024_S1536x1024_S1536x1024_S1536x1024_S1536x4096_d1) bitsLt_bf16_f32

/-- Columns 0..1023 of the fused weight are the first weight's rows. -/
theorem fuseW_apply0 (x0 x1 x2 x3 : S1024x1536.Idx → EReal) (row : Fin 1536) (q : Fin 1024) :
    fuseW x0 x1 x2 x3 (ix2 row (col 0 q)) = x0 (ix2 q row) := by
  unfold fuseW
  rw [truncf_apply]
  refine (concatenate_apply_piece (1 : Fin S1536x4096.rank) _ _
    (ix2 row (col 0 q)) 0 (by show (0 : Nat) < 4; omega) S1536x1024 _ rfl rfl 0 rfl (ix2 row q) (fun b hb => ?_) ?_).trans (transposeW_apply x0 row q)
  · match b, hb with
    | ⟨0, _⟩, _ => rfl
    | ⟨1, _⟩, hb => exact absurd rfl hb
  · show 0 + q.val = 1024 * 0 + q.val; omega

/-- Columns 1024..2047 of the fused weight are the second weight's rows. -/
theorem fuseW_apply1 (x0 x1 x2 x3 : S1024x1536.Idx → EReal) (row : Fin 1536) (q : Fin 1024) :
    fuseW x0 x1 x2 x3 (ix2 row (col 1 q)) = x1 (ix2 q row) := by
  unfold fuseW
  rw [truncf_apply]
  refine (concatenate_apply_piece (1 : Fin S1536x4096.rank) _ _
    (ix2 row (col 1 q)) 1 (by show (1 : Nat) < 4; omega) S1536x1024 _ rfl rfl 1024 rfl (ix2 row q) (fun b hb => ?_) ?_).trans (transposeW_apply x1 row q)
  · match b, hb with
    | ⟨0, _⟩, _ => rfl
    | ⟨1, _⟩, hb => exact absurd rfl hb
  · show 1024 + q.val = 1024 * 1 + q.val; omega

/-- Columns 2048..3071 of the fused weight are the third weight's rows. -/
theorem fuseW_apply2 (x0 x1 x2 x3 : S1024x1536.Idx → EReal) (row : Fin 1536) (q : Fin 1024) :
    fuseW x0 x1 x2 x3 (ix2 row (col 2 q)) = x2 (ix2 q row) := by
  unfold fuseW
  rw [truncf_apply]
  refine (concatenate_apply_piece (1 : Fin S1536x4096.rank) _ _
    (ix2 row (col 2 q)) 2 (by show (2 : Nat) < 4; omega) S1536x1024 _ rfl rfl 2048 rfl (ix2 row q) (fun b hb => ?_) ?_).trans (transposeW_apply x2 row q)
  · match b, hb with
    | ⟨0, _⟩, _ => rfl
    | ⟨1, _⟩, hb => exact absurd rfl hb
  · show 2048 + q.val = 1024 * 2 + q.val; omega

/-- Columns 3072..4095 of the fused weight are the fourth weight's rows. -/
theorem fuseW_apply3 (x0 x1 x2 x3 : S1024x1536.Idx → EReal) (row : Fin 1536) (q : Fin 1024) :
    fuseW x0 x1 x2 x3 (ix2 row (col 3 q)) = x3 (ix2 q row) := by
  unfold fuseW
  rw [truncf_apply]
  refine (concatenate_apply_piece (1 : Fin S1536x4096.rank) _ _
    (ix2 row (col 3 q)) 3 (by show (3 : Nat) < 4; omega) S1536x1024 _ rfl rfl 3072 rfl (ix2 row q) (fun b hb => ?_) ?_).trans (transposeW_apply x3 row q)
  · match b, hb with
    | ⟨0, _⟩, _ => rfl
    | ⟨1, _⟩, hb => exact absurd rfl hb
  · show 3072 + q.val = 1024 * 3 + q.val; omega

/-- A vector of 4096 entries read as one row: entry j of the row is entry j of the vector. -/
theorem rowB_apply (y : S4096.Idx → EReal) (j : Fin 4096) :
    shapeCast S1x4096 y shapeCasts_S4096_S1x4096 (ix2 (0 : Fin 1) j) = y (ix1 j) := by
  refine shapeCast_apply y shapeCasts_S4096_S1x4096 (ix2 (0 : Fin 1) j) (ix1 j) ?_
  rw [Shape.rowMajor_val_one, Shape.rowMajor_val_two]
  show j.val = 0 * 4096 + j.val
  omega

/-- Four biases end to end, as one row. -/
def fuseB (b0 b1 b2 b3 : S1024.Idx → EReal) : S1x4096.Idx → EReal :=
  shapeCast S1x4096 (concatenate S4096 0 [⟨S1024, b0⟩, ⟨S1024, b1⟩, ⟨S1024, b2⟩, ⟨S1024, b3⟩]
    concatenates_S1024_S1024_S1024_S1024_S4096_d0) shapeCasts_S4096_S1x4096

/-- Entries 0..1023 of the fused bias are the first bias. -/
theorem fuseB_apply0 (b0 b1 b2 b3 : S1024.Idx → EReal) (q : Fin 1024) :
    fuseB b0 b1 b2 b3 (ix2 (0 : Fin 1) (col 0 q)) = b0 (ix1 q) := by
  unfold fuseB
  refine (rowB_apply _ (col 0 q)).trans ?_
  refine concatenate_apply_piece (0 : Fin S4096.rank) _ _
    (ix1 (col 0 q)) 0 (by show (0 : Nat) < 4; omega) S1024 b0 rfl rfl 0 rfl (ix1 q) (fun b hb => ?_) ?_
  · match b, hb with
    | ⟨0, _⟩, hb => exact absurd rfl hb
  · show 0 + q.val = 1024 * 0 + q.val; omega

/-- Entries 1024..2047 of the fused bias are the second bias. -/
theorem fuseB_apply1 (b0 b1 b2 b3 : S1024.Idx → EReal) (q : Fin 1024) :
    fuseB b0 b1 b2 b3 (ix2 (0 : Fin 1) (col 1 q)) = b1 (ix1 q) := by
  unfold fuseB
  refine (rowB_apply _ (col 1 q)).trans ?_
  refine concatenate_apply_piece (0 : Fin S4096.rank) _ _
    (ix1 (col 1 q)) 1 (by show (1 : Nat) < 4; omega) S1024 b1 rfl rfl 1024 rfl (ix1 q) (fun b hb => ?_) ?_
  · match b, hb with
    | ⟨0, _⟩, hb => exact absurd rfl hb
  · show 1024 + q.val = 1024 * 1 + q.val; omega

/-- Entries 2048..3071 of the fused bias are the third bias. -/
theorem fuseB_apply2 (b0 b1 b2 b3 : S1024.Idx → EReal) (q : Fin 1024) :
    fuseB b0 b1 b2 b3 (ix2 (0 : Fin 1) (col 2 q)) = b2 (ix1 q) := by
  unfold fuseB
  refine (rowB_apply _ (col 2 q)).trans ?_
  refine concatenate_apply_piece (0 : Fin S4096.rank) _ _
    (ix1 (col 2 q)) 2 (by show (2 : Nat) < 4; omega) S1024 b2 rfl rfl 2048 rfl (ix1 q) (fun b hb => ?_) ?_
  · match b, hb with
    | ⟨0, _⟩, hb => exact absurd rfl hb
  · show 2048 + q.val = 1024 * 2 + q.val; omega

/-- Entries 3072..4095 of the fused bias are the fourth bias. -/
theorem fuseB_apply3 (b0 b1 b2 b3 : S1024.Idx → EReal) (q : Fin 1024) :
    fuseB b0 b1 b2 b3 (ix2 (0 : Fin 1) (col 3 q)) = b3 (ix1 q) := by
  unfold fuseB
  refine (rowB_apply _ (col 3 q)).trans ?_
  refine concatenate_apply_piece (0 : Fin S4096.rank) _ _
    (ix1 (col 3 q)) 3 (by show (3 : Nat) < 4; omega) S1024 b3 rfl rfl 3072 rfl (ix1 q) (fun b hb => ?_) ?_
  · match b, hb with
    | ⟨0, _⟩, hb => exact absurd rfl hb
  · show 3072 + q.val = 1024 * 3 + q.val; omega

end FusedTerms

section Fused

variable (m : (ℓ : Loc nD τ sig) → Buf (Elt Ideal) ℓ) (c : Dev nD)

/-- The fused weight as the region finds it: the four transposed weights side by side. -/
abbrev fusedW : S1536x4096.Idx → EReal :=
  StableHlo.after (hostOps0 (F := Ideal)) (fun b => m (c, b)) (Proc.devRef .tc main_v5)
/-- The fused bias as the region finds it: the four biases end to end, as one row. -/
abbrev fusedB : S1x4096.Idx → EReal :=
  StableHlo.after (hostOps0 (F := Ideal)) (fun b => m (c, b)) (Proc.devRef .tc main_v7)

/-- The operations before the region leave in the fused weight's array the four weight arguments,
    transposed, side by side, narrowed. -/
theorem fusedW_eq : fusedW m c
    = fuseW (m ((c.tc : Thread nD τ).loc main_arg5) : S1024x1536.Idx → EReal) (m ((c.tc : Thread nD τ).loc main_arg7) : S1024x1536.Idx → EReal)
        (m ((c.tc : Thread nD τ).loc main_arg9) : S1024x1536.Idx → EReal) (m ((c.tc : Thread nD τ).loc main_arg11) : S1024x1536.Idx → EReal) := by
  show StableHlo.after (hostOps0 (F := Ideal)) (fun b => m (c, b)) (Proc.devRef .tc main_v5) = _
  after_results
  rfl

/-- The operations before the region leave in the fused bias's array the four bias arguments end to
    end, as one row. -/
theorem fusedB_eq : fusedB m c
    = fuseB (m ((c.tc : Thread nD τ).loc main_arg6) : S1024.Idx → EReal) (m ((c.tc : Thread nD τ).loc main_arg8) : S1024.Idx → EReal)
        (m ((c.tc : Thread nD τ).loc main_arg10) : S1024.Idx → EReal) (m ((c.tc : Thread nD τ).loc main_arg12) : S1024.Idx → EReal) := by
  show StableHlo.after (hostOps0 (F := Ideal)) (fun b => m (c, b)) (Proc.devRef .tc main_v7) = _
  after_results
  rfl

theorem fusedW_i (row : Fin 1536) (q : Fin 1024) :
    fusedW m c (ix2 row (col 0 q)) = (m ((c.tc : Thread nD τ).loc main_arg5) : S1024x1536.Idx → EReal) (ix2 q row) :=
  (congrFun (fusedW_eq m c) _).trans (fuseW_apply0 _ _ _ _ row q)
theorem fusedW_f (row : Fin 1536) (q : Fin 1024) :
    fusedW m c (ix2 row (col 1 q)) = (m ((c.tc : Thread nD τ).loc main_arg7) : S1024x1536.Idx → EReal) (ix2 q row) :=
  (congrFun (fusedW_eq m c) _).trans (fuseW_apply1 _ _ _ _ row q)
theorem fusedW_z (row : Fin 1536) (q : Fin 1024) :
    fusedW m c (ix2 row (col 2 q)) = (m ((c.tc : Thread nD τ).loc main_arg9) : S1024x1536.Idx → EReal) (ix2 q row) :=
  (congrFun (fusedW_eq m c) _).trans (fuseW_apply2 _ _ _ _ row q)
theorem fusedW_o (row : Fin 1536) (q : Fin 1024) :
    fusedW m c (ix2 row (col 3 q)) = (m ((c.tc : Thread nD τ).loc main_arg11) : S1024x1536.Idx → EReal) (ix2 q row) :=
  (congrFun (fusedW_eq m c) _).trans (fuseW_apply3 _ _ _ _ row q)

theorem fusedB_i (q : Fin 1024) :
    fusedB m c (ix2 (0 : Fin 1) (col 0 q)) = (m ((c.tc : Thread nD τ).loc main_arg6) : S1024.Idx → EReal) (ix1 q) :=
  (congrFun (fusedB_eq m c) _).trans (fuseB_apply0 _ _ _ _ q)
theorem fusedB_f (q : Fin 1024) :
    fusedB m c (ix2 (0 : Fin 1) (col 1 q)) = (m ((c.tc : Thread nD τ).loc main_arg8) : S1024.Idx → EReal) (ix1 q) :=
  (congrFun (fusedB_eq m c) _).trans (fuseB_apply1 _ _ _ _ q)
theorem fusedB_z (q : Fin 1024) :
    fusedB m c (ix2 (0 : Fin 1) (col 2 q)) = (m ((c.tc : Thread nD τ).loc main_arg10) : S1024.Idx → EReal) (ix1 q) :=
  (congrFun (fusedB_eq m c) _).trans (fuseB_apply2 _ _ _ _ q)
theorem fusedB_o (q : Fin 1024) :
    fusedB m c (ix2 (0 : Fin 1) (col 3 q)) = (m ((c.tc : Thread nD τ).loc main_arg12) : S1024.Idx → EReal) (ix1 q) :=
  (congrFun (fusedB_eq m c) _).trans (fuseB_apply3 _ _ _ _ q)

end Fused

end Cert.KernelIdeal.CellValue

end
-- ==== Proof.IdealValue.lean ====
/-
  What the idealized kernel's four result arrays hold after the run: the cell's arrays of Cell.lean.

  Point t of the grid handles the rows 256·t … 256·t+255. Its x-block and its four state blocks are those
  rows of x, h, c, m, n; the fused weight and bias are read whole at every point. So at row p, unit q of
  the point's blocks the body's four pre-activations are the cell's at (256·t+p, q): the x-block's row
  against column 1024·g+q of the fused weight's first 512 rows is x's row against the first 512 entries of
  row q of gate g's weight, and likewise for the h-block and the last 1024 rows. What the point writes
  back is therefore the block of the cell's array, and the sixteen blocks tile the 4096 rows.
-/
import proofs.«410458_j35450660061940_3_alg».proof.Proof.IdealRegion
import proofs.«410458_j35450660061940_3_alg».proof.Proof.KernelCell
import proofs.«410458_j35450660061940_3_alg».proof.Proof.Cell
import Idealize.ShloMosaic.Lib.Pipeline.Value

set_option maxRecDepth 16384

noncomputable section

namespace Cert.KernelIdeal.CellRun

open Cert.KernelIdeal Cert.KernelIdeal.Gen Cert.KernelIdeal.Region Cert.KernelIdeal.CellValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the blocks lie -/

/-- The block index of every window at every point: the row-tiled windows are at (t, 0), the two whole ones at (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The array row of row p of point t's blocks. -/
def row (t : Fin cfg0.N) (p : Fin 256) : Fin 4096 :=
  ⟨256 * t.val + p.val, by have := t.isLt; have h : cfg0.N = 16 := N_0; omega⟩

@[simp] theorem row_val (t : Fin cfg0.N) (p : Fin 256) : (row t p).val = 256 * t.val + p.val := rfl

section Blocks

variable (c : Dev nD) (t : Fin cfg0.N)

/-- The x-block at (p, k) is x at (256·t+p, k). -/
theorem xblock_apply (p : Fin 256) (k : Fin 512) :
    blockAt m c 0 t (ix2 p k) = ((m ((c.tc : Thread nD τ).loc main_arg0)) : S4096x512.Idx → EReal) (ix2 (row t p) k) := by
  show entry m c main_arg0 (((cfg0.win 0).blk t).view.emb (ix2 p k)) = _
  rw [entry_of_not_written m c main_arg0 (by decide)]
  refine congrArg _ (funext fun a => Fin.ext ?_)
  obtain ⟨⟨e0, e1⟩, -⟩ := index_facts t
  match a with
  | ⟨0, _⟩ => show win0_0.index t (0 : Fin 2) * 256 + 1 * p.val = 256 * t.val + p.val; omega
  | ⟨1, _⟩ => show win0_0.index t (1 : Fin 2) * 512 + 1 * k.val = k.val; omega

/-- The h-, c-, m- and n-blocks at (p, q) are h, c, m, n at (256·t+p, q). -/
theorem hblock_apply (p : Fin 256) (q : Fin 1024) :
    blockAt m c 1 t (ix2 p q) = ((m ((c.tc : Thread nD τ).loc main_arg1)) : S4096x1024.Idx → EReal) (ix2 (row t p) q) := by
  show entry m c main_arg1 (((cfg0.win 1).blk t).view.emb (ix2 p q)) = _
  rw [entry_of_not_written m c main_arg1 (by decide)]
  refine congrArg _ (funext fun a => Fin.ext ?_)
  obtain ⟨-, ⟨e0, e1⟩, -⟩ := index_facts t
  match a with
  | ⟨0, _⟩ => show win0_1.index t (0 : Fin 2) * 256 + 1 * p.val = 256 * t.val + p.val; omega
  | ⟨1, _⟩ => show win0_1.index t (1 : Fin 2) * 1024 + 1 * q.val = q.val; omega
theorem cblock_apply (p : Fin 256) (q : Fin 1024) :
    blockAt m c 2 t (ix2 p q) = ((m ((c.tc : Thread nD τ).loc main_arg2)) : S4096x1024.Idx → EReal) (ix2 (row t p) q) := by
  show entry m c main_arg2 (((cfg0.win 2).blk t).view.emb (ix2 p q)) = _
  rw [entry_of_not_written m c main_arg2 (by decide)]
  refine congrArg _ (funext fun a => Fin.ext ?_)
  obtain ⟨-, -, ⟨e0, e1⟩, -⟩ := index_facts t
  match a with
  | ⟨0, _⟩ => show win0_2.index t (0 : Fin 2) * 256 + 1 * p.val = 256 * t.val + p.val; omega
  | ⟨1, _⟩ => show win0_2.index t (1 : Fin 2) * 1024 + 1 * q.val = q.val; omega
theorem mblock_apply (p : Fin 256) (q : Fin 1024) :
    blockAt m c 3 t (ix2 p q) = ((m ((c.tc : Thread nD τ).loc main_arg3)) : S4096x1024.Idx → EReal) (ix2 (row t p) q) := by
  show entry m c main_arg3 (((cfg0.win 3).blk t).view.emb (ix2 p q)) = _
  rw [entry_of_not_written m c main_arg3 (by decide)]
  refine congrArg _ (funext fun a => Fin.ext ?_)
  obtain ⟨-, -, -, ⟨e0, e1⟩, -⟩ := index_facts t
  match a with
  | ⟨0, _⟩ => show win0_3.index t (0 : Fin 2) * 256 + 1 * p.val = 256 * t.val + p.val; omega
  | ⟨1, _⟩ => show win0_3.index t (1 : Fin 2) * 1024 + 1 * q.val = q.val; omega
theorem nblock_apply (p : Fin 256) (q : Fin 1024) :
    blockAt m c 4 t (ix2 p q) = ((m ((c.tc : Thread nD τ).loc main_arg4)) : S4096x1024.Idx → EReal) (ix2 (row t p) q) := by
  show entry m c main_arg4 (((cfg0.win 4).blk t).view.emb (ix2 p q)) = _
  rw [entry_of_not_written m c main_arg4 (by decide)]
  refine congrArg _ (funext fun a => Fin.ext ?_)
  obtain ⟨-, -, -, -, ⟨e0, e1⟩, -⟩ := index_facts t
  match a with
  | ⟨0, _⟩ => show win0_4.index t (0 : Fin 2) * 256 + 1 * p.val = 256 * t.val + p.val; omega
  | ⟨1, _⟩ => show win0_4.index t (1 : Fin 2) * 1024 + 1 * q.val = q.val; omega

/-- The fused weight's block is the whole fused weight, the fused bias's the whole fused bias, at every point. -/
theorem wblock_apply (r : Fin 1536) (j : Fin 4096) : blockAt m c 5 t (ix2 r j) = fusedW m c (ix2 r j) := by
  show entry m c main_v5 (((cfg0.win 5).blk t).view.emb (ix2 r j)) = entry m c main_v5 (ix2 r j)
  refine congrArg _ (funext fun a => Fin.ext ?_)
  obtain ⟨-, -, -, -, -, ⟨e0, e1⟩, -⟩ := index_facts t
  match a with
  | ⟨0, _⟩ => show win0_5.index t (0 : Fin 2) * 1536 + 1 * r.val = r.val; omega
  | ⟨1, _⟩ => show win0_5.index t (1 : Fin 2) * 4096 + 1 * j.val = j.val; omega
theorem bblock_apply (z : Fin 1) (j : Fin 4096) : blockAt m c 6 t (ix2 z j) = fusedB m c (ix2 z j) := by
  show entry m c main_v7 (((cfg0.win 6).blk t).view.emb (ix2 z j)) = entry m c main_v7 (ix2 z j)
  refine congrArg _ (funext fun a => Fin.ext ?_)
  obtain ⟨-, -, -, -, -, -, ⟨e0, e1⟩, -⟩ := index_facts t
  match a with
  | ⟨0, _⟩ => show win0_6.index t (0 : Fin 2) * 1 + 1 * z.val = z.val; omega
  | ⟨1, _⟩ => show win0_6.index t (1 : Fin 2) * 4096 + 1 * j.val = j.val; omega

end Blocks

/-! ## The loads -/

theorem zero_offsets : (![0, 0] : Fin 2 → Nat) = fun _ => 0 := funext fun a => by fin_cases a <;> rfl

/-- The load of the fused weight's first 512 rows reads row k at row k; of its last 1024 rows, at row 512+k. -/
theorem ld_rWx (X : Vec Ideal S1536x4096 .bf16) (k : Fin 512) (j : Fin 4096) :
    View.ld X rWx (ix2 k j) = X (ix2 (Slstm.lo k) j) := by
  show X (rWx.idx (ix2 k j)) = _
  refine congrArg _ (funext fun a => Fin.ext ?_)
  match a with
  | ⟨0, _⟩ => show 0 + 1 * k.val = k.val; omega
  | ⟨1, _⟩ => show 0 + 1 * j.val = j.val; omega
theorem ld_rWh (X : Vec Ideal S1536x4096 .bf16) (k : Fin 1024) (j : Fin 4096) :
    View.ld X rWh (ix2 k j) = X (ix2 (Slstm.hi k) j) := by
  show X (rWh.idx (ix2 k j)) = _
  refine congrArg _ (funext fun a => Fin.ext ?_)
  match a with
  | ⟨0, _⟩ => show 512 + 1 * k.val = 512 + k.val; omega
  | ⟨1, _⟩ => show 0 + 1 * j.val = j.val; omega

/-- The load of a whole state block reads it as it is. -/
theorem ld_rS (X : Vec Ideal S256x1024 .f32) (p : Fin 256) (q : Fin 1024) : View.ld X rS (ix2 p q) = X (ix2 p q) :=
  congrFun (View.ld_unit_zero (S := S256x1024) zero_offsets _ X) (ix2 p q)

/-! ## The gates -/

/-- Gate g's pre-activation at (p, q) of point t's blocks is the cell's at (256·t+p, q), for the weight and bias
    whose rows and entries the fused operands hold at the columns 1024·g+q. -/
theorem pre_of (c : Dev nD) (t : Fin cfg0.N) (g : Fin 4) (W : S1024x1536.Idx → EReal) (b : S1024.Idx → EReal)
    (hW : ∀ (r : Fin 1536) (q : Fin 1024), fusedW m c (ix2 r (col g q)) = W (ix2 q r))
    (hb : ∀ q : Fin 1024, fusedB m c (ix2 (0 : Fin 1) (col g q)) = b (ix1 q))
    (p : Fin 256) (q : Fin 1024) :
    blkPre (View.ld (blockAt m c 0 t) rX) (View.ld (blockAt m c 1 t) rS) (View.ld (blockAt m c 5 t) rWx)
        (View.ld (blockAt m c 5 t) rWh) (View.ld (blockAt m c 6 t) rB) g p q
      = Slstm.pre (m ((c.tc : Thread nD τ).loc main_arg0)) (m ((c.tc : Thread nD τ).loc main_arg1)) W b (row t p) q := by
  unfold blkPre Slstm.pre
  rw [View.ld_unit_zero (S := S256x512) zero_offsets, View.ld_unit_zero (S := S256x1024) zero_offsets,
    View.ld_unit_zero (S := S1x4096) zero_offsets]
  have e1 : (fun k : Fin 512 => blockAt m c 0 t (ix2 p k)) = fun k => ((m ((c.tc : Thread nD τ).loc main_arg0)) : S4096x512.Idx → EReal) (ix2 (row t p) k) :=
    funext fun k => xblock_apply m c t p k
  have e2 : (fun k : Fin 512 => View.ld (blockAt m c 5 t) rWx (ix2 k (col g q))) = fun k => W (ix2 q (Slstm.lo k)) :=
    funext fun k => by rw [ld_rWx, wblock_apply, hW]
  have e3 : (fun k : Fin 1024 => blockAt m c 1 t (ix2 p k)) = fun k => ((m ((c.tc : Thread nD τ).loc main_arg1)) : S4096x1024.Idx → EReal) (ix2 (row t p) k) :=
    funext fun k => hblock_apply m c t p k
  have e4 : (fun k : Fin 1024 => View.ld (blockAt m c 5 t) rWh (ix2 k (col g q))) = fun k => W (ix2 q (Slstm.hi k)) :=
    funext fun k => by rw [ld_rWh, wblock_apply, hW]
  have e5 : blockAt m c 6 t (ix2 (0 : Fin 1) (col g q)) = b (ix1 q) := by rw [bblock_apply, hb]
  rw [e1, e2, e3, e4, e5]

/-! ## The four stored blocks at an element -/

section Stored

variable (c : Dev nD) (t : Fin cfg0.N) (p : Fin 256) (q : Fin 1024)

/-- The stabiliser block the body stores at point t, at (p, q), is the cell's stabiliser at (256·t+p, q). -/
theorem stabiliser_at :
    k0_pay4 (F := Ideal) (View.ld (blockAt m c 0 t) rX) (View.ld (blockAt m c 1 t) rS) (View.ld (blockAt m c 5 t) rWx) (View.ld (blockAt m c 5 t) rWh) (View.ld (blockAt m c 6 t) rB) (View.ld (blockAt m c 3 t) rS) (ix2 p q)
      = Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 (row t p) q) := by
  refine (pay_m (View.ld (blockAt m c 0 t) rX) (View.ld (blockAt m c 1 t) rS) (View.ld (blockAt m c 5 t) rWx) (View.ld (blockAt m c 5 t) rWh) (View.ld (blockAt m c 6 t) rB) (View.ld (blockAt m c 3 t) rS) p q).trans ?_
  rw [pre_of m c t 0 (m ((c.tc : Thread nD τ).loc main_arg5)) (m ((c.tc : Thread nD τ).loc main_arg6)) (fusedW_i m c) (fusedB_i m c) p q, pre_of m c t 1 (m ((c.tc : Thread nD τ).loc main_arg7)) (m ((c.tc : Thread nD τ).loc main_arg8)) (fusedW_f m c) (fusedB_f m c) p q]
  have hm : View.ld (blockAt m c 3 t) rS (ix2 p q) = ((m ((c.tc : Thread nD τ).loc main_arg3)) : S4096x1024.Idx → EReal) (ix2 (row t p) q) :=
    (ld_rS (blockAt m c 3 t) p q).trans (mblock_apply m c t p q)
  rw [hm]
  rfl

/-- The cell block. -/
theorem cell_at :
    k0_pay7 (F := Ideal) (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 2 t) rS) (ix2 p q)
      = Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 (row t p) q) := by
  refine (pay_c (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 2 t) rS) p q).trans ?_
  rw [pre_of m c t 0 (m ((c.tc : Thread nD τ).loc main_arg5)) (m ((c.tc : Thread nD τ).loc main_arg6)) (fusedW_i m c) (fusedB_i m c) p q, pre_of m c t 1 (m ((c.tc : Thread nD τ).loc main_arg7)) (m ((c.tc : Thread nD τ).loc main_arg8)) (fusedW_f m c) (fusedB_f m c) p q, pre_of m c t 2 (m ((c.tc : Thread nD τ).loc main_arg9)) (m ((c.tc : Thread nD τ).loc main_arg10)) (fusedW_z m c) (fusedB_z m c) p q]
  have hm : View.ld (blockAt m c 3 t) rS (ix2 p q) = ((m ((c.tc : Thread nD τ).loc main_arg3)) : S4096x1024.Idx → EReal) (ix2 (row t p) q) :=
    (ld_rS (blockAt m c 3 t) p q).trans (mblock_apply m c t p q)
  have hc : View.ld (blockAt m c 2 t) rS (ix2 p q) = ((m ((c.tc : Thread nD τ).loc main_arg2)) : S4096x1024.Idx → EReal) (ix2 (row t p) q) :=
    (ld_rS (blockAt m c 2 t) p q).trans (cblock_apply m c t p q)
  rw [hm, hc]
  rfl

/-- The normaliser block. -/
theorem normaliser_at :
    k0_pay8 (F := Ideal) (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 4 t) rS) (ix2 p q)
      = Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 (row t p) q) := by
  refine (pay_n (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 4 t) rS) p q).trans ?_
  rw [pre_of m c t 0 (m ((c.tc : Thread nD τ).loc main_arg5)) (m ((c.tc : Thread nD τ).loc main_arg6)) (fusedW_i m c) (fusedB_i m c) p q, pre_of m c t 1 (m ((c.tc : Thread nD τ).loc main_arg7)) (m ((c.tc : Thread nD τ).loc main_arg8)) (fusedW_f m c) (fusedB_f m c) p q]
  have hm : View.ld (blockAt m c 3 t) rS (ix2 p q) = ((m ((c.tc : Thread nD τ).loc main_arg3)) : S4096x1024.Idx → EReal) (ix2 (row t p) q) :=
    (ld_rS (blockAt m c 3 t) p q).trans (mblock_apply m c t p q)
  have hn : View.ld (blockAt m c 4 t) rS (ix2 p q) = ((m ((c.tc : Thread nD τ).loc main_arg4)) : S4096x1024.Idx → EReal) (ix2 (row t p) q) :=
    (ld_rS (blockAt m c 4 t) p q).trans (nblock_apply m c t p q)
  rw [hm, hn]
  rfl

/-- The hidden block. -/
theorem hidden_at :
    k0_pay9 (F := Ideal) (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 2 t) rS) (View.ld (blockAt m c 4 t) rS) (ix2 p q)
      = Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 (row t p) q) := by
  refine (pay_h (View.ld (blockAt m c 0 t) rX) (View.ld (blockAt m c 1 t) rS) (View.ld (blockAt m c 5 t) rWx) (View.ld (blockAt m c 5 t) rWh) (View.ld (blockAt m c 6 t) rB) (View.ld (blockAt m c 3 t) rS) (View.ld (blockAt m c 2 t) rS) (View.ld (blockAt m c 4 t) rS) p q).trans ?_
  rw [pre_of m c t 0 (m ((c.tc : Thread nD τ).loc main_arg5)) (m ((c.tc : Thread nD τ).loc main_arg6)) (fusedW_i m c) (fusedB_i m c) p q, pre_of m c t 1 (m ((c.tc : Thread nD τ).loc main_arg7)) (m ((c.tc : Thread nD τ).loc main_arg8)) (fusedW_f m c) (fusedB_f m c) p q, pre_of m c t 2 (m ((c.tc : Thread nD τ).loc main_arg9)) (m ((c.tc : Thread nD τ).loc main_arg10)) (fusedW_z m c) (fusedB_z m c) p q, pre_of m c t 3 (m ((c.tc : Thread nD τ).loc main_arg11)) (m ((c.tc : Thread nD τ).loc main_arg12)) (fusedW_o m c) (fusedB_o m c) p q]
  have hm : View.ld (blockAt m c 3 t) rS (ix2 p q) = ((m ((c.tc : Thread nD τ).loc main_arg3)) : S4096x1024.Idx → EReal) (ix2 (row t p) q) :=
    (ld_rS (blockAt m c 3 t) p q).trans (mblock_apply m c t p q)
  have hc : View.ld (blockAt m c 2 t) rS (ix2 p q) = ((m ((c.tc : Thread nD τ).loc main_arg2)) : S4096x1024.Idx → EReal) (ix2 (row t p) q) :=
    (ld_rS (blockAt m c 2 t) p q).trans (cblock_apply m c t p q)
  have hn : View.ld (blockAt m c 4 t) rS (ix2 p q) = ((m ((c.tc : Thread nD τ).loc main_arg4)) : S4096x1024.Idx → EReal) (ix2 (row t p) q) :=
    (ld_rS (blockAt m c 4 t) p q).trans (nblock_apply m c t p q)
  rw [hm, hc, hn]
  rfl

end Stored

/-! ## What a point writes back, and the tiling -/

section Flushed

variable (c : Dev nD) (t : Fin cfg0.N)

/-- Point t writes back, to the hidden result, block t of the cell's hidden array. -/
theorem flushedH : (dats m 0 c).flushed 7 t = ((cfg0.win 7).blk t).view.read (Elt Ideal) (Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show (cfg0.win 7).cut (grid0.coords t) ((dats m 0 c).after 7 t) = _
  rw [after7]
  unfold leftH
  rw [View.canon_unit_zero zero_offsets]
  funext j
  refine (congrArg _ (eq_ix2 j)).trans ((hidden_at m c t (j 0) (j 1)).trans ?_)
  show _ = Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (((cfg0.win 7).blk t).view.emb j)
  refine congrArg _ (funext fun a => Fin.ext ?_)
  obtain ⟨-, -, -, -, -, -, -, ⟨e0, e1⟩, -⟩ := index_facts t
  match a with
  | ⟨0, _⟩ => show 256 * t.val + (j 0).val = win0_7.index t (0 : Fin 2) * 256 + 1 * (j 0).val; omega
  | ⟨1, _⟩ => show (j 1).val = win0_7.index t (1 : Fin 2) * 1024 + 1 * (j 1).val; omega

/-- To the cell result, block t of the cell's cell array. -/
theorem flushedC : (dats m 0 c).flushed 8 t = ((cfg0.win 8).blk t).view.read (Elt Ideal) (Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show (cfg0.win 8).cut (grid0.coords t) ((dats m 0 c).after 8 t) = _
  rw [after8]
  unfold leftC
  rw [View.canon_unit_zero zero_offsets]
  funext j
  refine (congrArg _ (eq_ix2 j)).trans ((cell_at m c t (j 0) (j 1)).trans ?_)
  show _ = Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (((cfg0.win 8).blk t).view.emb j)
  refine congrArg _ (funext fun a => Fin.ext ?_)
  obtain ⟨-, -, -, -, -, -, -, -, ⟨e0, e1⟩, -⟩ := index_facts t
  match a with
  | ⟨0, _⟩ => show 256 * t.val + (j 0).val = win0_8.index t (0 : Fin 2) * 256 + 1 * (j 0).val; omega
  | ⟨1, _⟩ => show (j 1).val = win0_8.index t (1 : Fin 2) * 1024 + 1 * (j 1).val; omega

/-- To the stabiliser result, block t of the cell's stabiliser array. -/
theorem flushedM : (dats m 0 c).flushed 9 t = ((cfg0.win 9).blk t).view.read (Elt Ideal) (Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show (cfg0.win 9).cut (grid0.coords t) ((dats m 0 c).after 9 t) = _
  rw [after9]
  unfold leftM
  rw [View.canon_unit_zero zero_offsets]
  funext j
  refine (congrArg _ (eq_ix2 j)).trans ((stabiliser_at m c t (j 0) (j 1)).trans ?_)
  show _ = Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (((cfg0.win 9).blk t).view.emb j)
  refine congrArg _ (funext fun a => Fin.ext ?_)
  obtain ⟨-, -, -, -, -, -, -, -, -, ⟨e0, e1⟩, -⟩ := index_facts t
  match a with
  | ⟨0, _⟩ => show 256 * t.val + (j 0).val = win0_9.index t (0 : Fin 2) * 256 + 1 * (j 0).val; omega
  | ⟨1, _⟩ => show (j 1).val = win0_9.index t (1 : Fin 2) * 1024 + 1 * (j 1).val; omega

/-- To the normaliser result, block t of the cell's normaliser array. -/
theorem flushedN : (dats m 0 c).flushed 10 t = ((cfg0.win 10).blk t).view.read (Elt Ideal) (Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show (cfg0.win 10).cut (grid0.coords t) ((dats m 0 c).after 10 t) = _
  rw [after10]
  unfold leftN
  rw [View.canon_unit_zero zero_offsets]
  funext j
  refine (congrArg _ (eq_ix2 j)).trans ((normaliser_at m c t (j 0) (j 1)).trans ?_)
  show _ = Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (((cfg0.win 10).blk t).view.emb j)
  refine congrArg _ (funext fun a => Fin.ext ?_)
  obtain ⟨-, -, -, -, -, -, -, -, -, -, ⟨e0, e1⟩⟩ := index_facts t
  match a with
  | ⟨0, _⟩ => show 256 * t.val + (j 0).val = win0_10.index t (0 : Fin 2) * 256 + 1 * (j 0).val; omega
  | ⟨1, _⟩ => show (j 1).val = win0_10.index t (1 : Fin 2) * 1024 + 1 * (j 1).val; omega

end Flushed

/-- The point whose blocks hold array row r: r / 256. -/
def pointOf (i : S4096x1024.Idx) : Fin cfg0.N :=
  ⟨(i 0).val / 256, by show _ < grid0.N; rw [N_0]; have : (i 0).val < 4096 := (i 0).isLt; omega⟩

/-! Every index of a result array lies in the block of the point that handles its row: the sixteen blocks tile the
4096 rows, and each spans all 1024 columns. -/

theorem coveredH (i : S4096x1024.Idx) : ∃ t : Fin cfg0.N, (cfg0.win 7).flush t = true ∧ i ∈ ((cfg0.win 7).blk t).view.set := by
  refine ⟨pointOf i, flush0_7 _, ?_⟩
  show i ∈ ((View.whole main_v8_0).slice (win0_7.rect (pointOf i))).set
  rw [View.set_slice_whole, Rect.mem_set_unit]
  obtain ⟨-, -, -, -, -, -, -, ⟨e0, e1⟩, -⟩ := index_facts (pointOf i)
  have hi0 : (i 0).val < 4096 := (i 0).isLt
  have hi1 : (i 1).val < 1024 := (i 1).isLt
  intro a
  match a with
  | ⟨0, _⟩ => show win0_7.index (pointOf i) (0 : Fin 2) * 256 ≤ (i 0).val ∧ (i 0).val < win0_7.index (pointOf i) (0 : Fin 2) * 256 + 256; rw [e0]; show (i 0).val / 256 * 256 ≤ _ ∧ _ < (i 0).val / 256 * 256 + 256; omega
  | ⟨1, _⟩ => show win0_7.index (pointOf i) (1 : Fin 2) * 1024 ≤ (i 1).val ∧ (i 1).val < win0_7.index (pointOf i) (1 : Fin 2) * 1024 + 1024; omega

theorem coveredC (i : S4096x1024.Idx) : ∃ t : Fin cfg0.N, (cfg0.win 8).flush t = true ∧ i ∈ ((cfg0.win 8).blk t).view.set := by
  refine ⟨pointOf i, flush0_8 _, ?_⟩
  show i ∈ ((View.whole main_v8_1).slice (win0_8.rect (pointOf i))).set
  rw [View.set_slice_whole, Rect.mem_set_unit]
  obtain ⟨-, -, -, -, -, -, -, -, ⟨e0, e1⟩, -⟩ := index_facts (pointOf i)
  have hi0 : (i 0).val < 4096 := (i 0).isLt
  have hi1 : (i 1).val < 1024 := (i 1).isLt
  intro a
  match a with
  | ⟨0, _⟩ => show win0_8.index (pointOf i) (0 : Fin 2) * 256 ≤ (i 0).val ∧ (i 0).val < win0_8.index (pointOf i) (0 : Fin 2) * 256 + 256; rw [e0]; show (i 0).val / 256 * 256 ≤ _ ∧ _ < (i 0).val / 256 * 256 + 256; omega
  | ⟨1, _⟩ => show win0_8.index (pointOf i) (1 : Fin 2) * 1024 ≤ (i 1).val ∧ (i 1).val < win0_8.index (pointOf i) (1 : Fin 2) * 1024 + 1024; omega

theorem coveredM (i : S4096x1024.Idx) : ∃ t : Fin cfg0.N, (cfg0.win 9).flush t = true ∧ i ∈ ((cfg0.win 9).blk t).view.set := by
  refine ⟨pointOf i, flush0_9 _, ?_⟩
  show i ∈ ((View.whole main_v8_2).slice (win0_9.rect (pointOf i))).set
  rw [View.set_slice_whole, Rect.mem_set_unit]
  obtain ⟨-, -, -, -, -, -, -, -, -, ⟨e0, e1⟩, -⟩ := index_facts (pointOf i)
  have hi0 : (i 0).val < 4096 := (i 0).isLt
  have hi1 : (i 1).val < 1024 := (i 1).isLt
  intro a
  match a with
  | ⟨0, _⟩ => show win0_9.index (pointOf i) (0 : Fin 2) * 256 ≤ (i 0).val ∧ (i 0).val < win0_9.index (pointOf i) (0 : Fin 2) * 256 + 256; rw [e0]; show (i 0).val / 256 * 256 ≤ _ ∧ _ < (i 0).val / 256 * 256 + 256; omega
  | ⟨1, _⟩ => show win0_9.index (pointOf i) (1 : Fin 2) * 1024 ≤ (i 1).val ∧ (i 1).val < win0_9.index (pointOf i) (1 : Fin 2) * 1024 + 1024; omega

theorem coveredN (i : S4096x1024.Idx) : ∃ t : Fin cfg0.N, (cfg0.win 10).flush t = true ∧ i ∈ ((cfg0.win 10).blk t).view.set := by
  refine ⟨pointOf i, flush0_10 _, ?_⟩
  show i ∈ ((View.whole main_v8_3).slice (win0_10.rect (pointOf i))).set
  rw [View.set_slice_whole, Rect.mem_set_unit]
  obtain ⟨-, -, -, -, -, -, -, -, -, -, ⟨e0, e1⟩⟩ := index_facts (pointOf i)
  have hi0 : (i 0).val < 4096 := (i 0).isLt
  have hi1 : (i 1).val < 1024 := (i 1).isLt
  intro a
  match a with
  | ⟨0, _⟩ => show win0_10.index (pointOf i) (0 : Fin 2) * 256 ≤ (i 0).val ∧ (i 0).val < win0_10.index (pointOf i) (0 : Fin 2) * 256 + 256; rw [e0]; show (i 0).val / 256 * 256 ≤ _ ∧ _ < (i 0).val / 256 * 256 + 256; omega
  | ⟨1, _⟩ => show win0_10.index (pointOf i) (1 : Fin 2) * 1024 ≤ (i 1).val ∧ (i 1).val < win0_10.index (pointOf i) (1 : Fin 2) * 1024 + 1024; omega

/-! ## The result arrays after the run -/

theorem finalH (c : Dev nD) : (dats m 0 c).arrAt 7 cfg0.N = Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats m 0 c).arrAt_eq_of_cover 7 (Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (fun t _ => flushedH m c t) coveredH
theorem finalC (c : Dev nD) : (dats m 0 c).arrAt 8 cfg0.N = Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats m 0 c).arrAt_eq_of_cover 8 (Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (fun t _ => flushedC m c t) coveredC
theorem finalM (c : Dev nD) : (dats m 0 c).arrAt 9 cfg0.N = Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats m 0 c).arrAt_eq_of_cover 9 (Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (fun t _ => flushedM m c t) coveredM
theorem finalN (c : Dev nD) : (dats m 0 c).arrAt 10 cfg0.N = Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats m 0 c).arrAt_eq_of_cover 10 (Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (fun t _ => flushedN m c t) coveredN

/-- The idealized kernel's run, with its four results named as the cell's arrays of the arguments, and the
    arguments unchanged. -/
theorem run_cell : θ_run (defs (F := Ideal)) (onTc (τ := τ) (main (F := Ideal))) ⟨m, fun _ => 0, ρ⟩ fun r => ∀ c : Dev nD,
      r.2.mem ((c.tc : Thread nD τ).loc main_v8_0) = Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v8_1) = Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v8_2) = Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v8_3) = Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 7).trans (finalH m c), ((h c).1 8).trans (finalC m c),
      ((h c).1 9).trans (finalM m c), ((h c).1 10).trans (finalN m c), kept_at m r h c⟩)
    (run_main m ρ)

end Cert.KernelIdeal.CellRun

end
-- ==== Proof.RefCell.lean ====
/-
  The reference computes the cell: each of its four results, as the host operations compose it from
  the argument arrays, is the cell's array of Cell.lean, index by index.
-/
import proofs.«410458_j35450660061940_3_alg».proof.Proof.Gen.ReferenceIdeal.Read
import proofs.«410458_j35450660061940_3_alg».proof.Proof.Cell
import Idealize.ShloMosaic.Lib.IdealHost

noncomputable section

namespace Cert.ReferenceIdeal.CellValue

open Cert.ReferenceIdeal Cert.ReferenceIdeal.Gen Idealize.ShloMosaic Idealize.ShloMosaic.TcCoe Idealize.SL.Sem
open Idealize.ShloMosaic.ValueIdx

/-! The reference at one element. Its joined array [x | h] is read by the side of column 512 a column falls on;
a gate's contraction over the 1536 joined columns then splits into the x-part and the h-part of the cell's
pre-activation, and the remaining stages are elementwise. -/

section

open Cert.ReferenceIdeal.Read
open scoped BigOperators

/-- The joined array at a column of its first 512 is x there. -/
theorem joined_lo (x : Slstm.Sx.Idx → EReal) (h : Slstm.Ss.Idx → EReal) (r : Fin 4096) (k : Fin 512) :
    val_main_v0 (F := Ideal) x h (ix2 r (Slstm.lo k)) = x (ix2 r k) := by
  unfold val_main_v0
  exact concatenate_pair_apply_left 1 x h concatenates_S4096x512_S4096x1024_S4096x1536_d1 (ix2 r (Slstm.lo k)) rfl (ix2 r k)
    (fun b => match b with | ⟨0, _⟩ => rfl | ⟨1, _⟩ => rfl)

/-- The joined array at a column past the first 512 is h at that column less 512. -/
theorem joined_hi (x : Slstm.Sx.Idx → EReal) (h : Slstm.Ss.Idx → EReal) (r : Fin 4096) (k : Fin 1024) :
    val_main_v0 (F := Ideal) x h (ix2 r (Slstm.hi k)) = h (ix2 r k) := by
  unfold val_main_v0
  refine concatenate_pair_apply_right 1 x h concatenates_S4096x512_S4096x1024_S4096x1536_d1 (ix2 r (Slstm.hi k)) rfl rfl (ix2 r k)
    (fun b => match b with | ⟨0, _⟩ => fun _ => rfl | ⟨1, _⟩ => fun hb => absurd rfl hb) ?_
  show k.val + 512 = 512 + k.val
  omega

/-! A gate's pre-activation. The contraction ∑ k < 1536, [x | h][r, k] · Wᵀ[k, j] splits at column 512; on the first
part the joined array is x and on the second it is h, and Wᵀ[k, j] is W[j, k]; the twice-broadcast bias is b[j].
The four gates are the same computation on their own weight and bias. -/

/-- The input gate's pre-activation. -/
theorem pre_input (x : Slstm.Sx.Idx → EReal) (h : Slstm.Ss.Idx → EReal) (W : Slstm.Sw.Idx → EReal) (b : Slstm.Sb.Idx → EReal)
    (r : Fin 4096) (j : Fin 1024) :
    val_main_v5 (F := Ideal) x h W b (ix2 r j) = Slstm.pre x h W b r j := by
  have el : ∀ k : Fin 1536, lidx_main_v2 (ix2 r j) k = ix2 r k := fun k =>
    funext fun a => match a with | ⟨0, _⟩ => rfl | ⟨1, _⟩ => rfl
  have er : ∀ k : Fin 1536, idx_main_v1 (ridx_main_v2 (ix2 r j) k) = ix2 j k := fun k =>
    funext fun a => match a with | ⟨0, _⟩ => rfl | ⟨1, _⟩ => rfl
  have eb : idx_main_v3 (idx_main_v4 (ix2 r j)) = ix1 j :=
    funext fun a => match a with | ⟨0, _⟩ => rfl
  rw [val_main_v5_apply, val_main_v2_apply, val_main_v4_apply, val_main_v3_apply]
  unfold Slstm.pre Slstm.dotRows
  rw [Slstm.sum_lo_hi]
  simp only [el, val_main_v1_apply, er, eb, joined_lo, joined_hi, Ideal.addf_def]

/-- The forget gate's pre-activation. -/
theorem pre_forget (x : Slstm.Sx.Idx → EReal) (h : Slstm.Ss.Idx → EReal) (W : Slstm.Sw.Idx → EReal) (b : Slstm.Sb.Idx → EReal)
    (r : Fin 4096) (j : Fin 1024) :
    val_main_v10 (F := Ideal) x h W b (ix2 r j) = Slstm.pre x h W b r j := by
  have el : ∀ k : Fin 1536, lidx_main_v7 (ix2 r j) k = ix2 r k := fun k =>
    funext fun a => match a with | ⟨0, _⟩ => rfl | ⟨1, _⟩ => rfl
  have er : ∀ k : Fin 1536, idx_main_v6 (ridx_main_v7 (ix2 r j) k) = ix2 j k := fun k =>
    funext fun a => match a with | ⟨0, _⟩ => rfl | ⟨1, _⟩ => rfl
  have eb : idx_main_v8 (idx_main_v9 (ix2 r j)) = ix1 j :=
    funext fun a => match a with | ⟨0, _⟩ => rfl
  rw [val_main_v10_apply, val_main_v7_apply, val_main_v9_apply, val_main_v8_apply]
  unfold Slstm.pre Slstm.dotRows
  rw [Slstm.sum_lo_hi]
  simp only [el, val_main_v6_apply, er, eb, joined_lo, joined_hi, Ideal.addf_def]

/-- The cell gate's pre-activation. -/
theorem pre_cell (x : Slstm.Sx.Idx → EReal) (h : Slstm.Ss.Idx → EReal) (W : Slstm.Sw.Idx → EReal) (b : Slstm.Sb.Idx → EReal)
    (r : Fin 4096) (j : Fin 1024) :
    val_main_v22 (F := Ideal) x h W b (ix2 r j) = Slstm.pre x h W b r j := by
  have el : ∀ k : Fin 1536, lidx_main_v19 (ix2 r j) k = ix2 r k := fun k =>
    funext fun a => match a with | ⟨0, _⟩ => rfl | ⟨1, _⟩ => rfl
  have er : ∀ k : Fin 1536, idx_main_v18 (ridx_main_v19 (ix2 r j) k) = ix2 j k := fun k =>
    funext fun a => match a with | ⟨0, _⟩ => rfl | ⟨1, _⟩ => rfl
  have eb : idx_main_v20 (idx_main_v21 (ix2 r j)) = ix1 j :=
    funext fun a => match a with | ⟨0, _⟩ => rfl
  rw [val_main_v22_apply, val_main_v19_apply, val_main_v21_apply, val_main_v20_apply]
  unfold Slstm.pre Slstm.dotRows
  rw [Slstm.sum_lo_hi]
  simp only [el, val_main_v18_apply, er, eb, joined_lo, joined_hi, Ideal.addf_def]

/-- The output gate's pre-activation. -/
theorem pre_output (x : Slstm.Sx.Idx → EReal) (h : Slstm.Ss.Idx → EReal) (W : Slstm.Sw.Idx → EReal) (b : Slstm.Sb.Idx → EReal)
    (r : Fin 4096) (j : Fin 1024) :
    val_main_v28 (F := Ideal) x h W b (ix2 r j) = Slstm.pre x h W b r j := by
  have el : ∀ k : Fin 1536, lidx_main_v25 (ix2 r j) k = ix2 r k := fun k =>
    funext fun a => match a with | ⟨0, _⟩ => rfl | ⟨1, _⟩ => rfl
  have er : ∀ k : Fin 1536, idx_main_v24 (ridx_main_v25 (ix2 r j) k) = ix2 j k := fun k =>
    funext fun a => match a with | ⟨0, _⟩ => rfl | ⟨1, _⟩ => rfl
  have eb : idx_main_v26 (idx_main_v27 (ix2 r j)) = ix1 j :=
    funext fun a => match a with | ⟨0, _⟩ => rfl
  rw [val_main_v28_apply, val_main_v25_apply, val_main_v27_apply, val_main_v26_apply]
  unfold Slstm.pre Slstm.dotRows
  rw [Slstm.sum_lo_hi]
  simp only [el, val_main_v24_apply, er, eb, joined_lo, joined_hi, Ideal.addf_def]

/-! Each later stage of the reference at the element (r, j), in the cell's own terms: li, lf, z, o are the four
pre-activations there, and the previous stabiliser, cell and normaliser are read at the same element. -/

/-- The new stabiliser: the larger of lf + m and li. -/
theorem stabiliser_at (x0 : Slstm.Sx.Idx → EReal) (x1 : Slstm.Ss.Idx → EReal) (x3 : Slstm.Ss.Idx → EReal) (x5 : Slstm.Sw.Idx → EReal) (x6 : Slstm.Sb.Idx → EReal) (x7 : Slstm.Sw.Idx → EReal) (x8 : Slstm.Sb.Idx → EReal) (r : Fin 4096) (j : Fin 1024) :
    val_main_v12 (F := Ideal) x0 x1 x3 x5 x6 x7 x8 (ix2 r j) = Slstm.mNew (Slstm.pre x0 x1 x5 x6 r j) (Slstm.pre x0 x1 x7 x8 r j) (x3 (ix2 r j)) := by
  rw [val_main_v12_apply, val_main_v11_apply, pre_forget, pre_input]
  rfl

/-- The stabilised input gate: exp (li − m'). -/
theorem inputGate_at (x0 : Slstm.Sx.Idx → EReal) (x1 : Slstm.Ss.Idx → EReal) (x3 : Slstm.Ss.Idx → EReal) (x5 : Slstm.Sw.Idx → EReal) (x6 : Slstm.Sb.Idx → EReal) (x7 : Slstm.Sw.Idx → EReal) (x8 : Slstm.Sb.Idx → EReal) (r : Fin 4096) (j : Fin 1024) :
    val_main_v14 (F := Ideal) x0 x1 x3 x5 x6 x7 x8 (ix2 r j) = Slstm.iGate (Slstm.pre x0 x1 x5 x6 r j) (Slstm.pre x0 x1 x7 x8 r j) (x3 (ix2 r j)) := by
  rw [val_main_v14_apply, val_main_v13_apply, stabiliser_at, pre_input]
  rfl

/-- The stabilised forget gate: exp (lf + m − m'). -/
theorem forgetGate_at (x0 : Slstm.Sx.Idx → EReal) (x1 : Slstm.Ss.Idx → EReal) (x3 : Slstm.Ss.Idx → EReal) (x5 : Slstm.Sw.Idx → EReal) (x6 : Slstm.Sb.Idx → EReal) (x7 : Slstm.Sw.Idx → EReal) (x8 : Slstm.Sb.Idx → EReal) (r : Fin 4096) (j : Fin 1024) :
    val_main_v17 (F := Ideal) x0 x1 x3 x5 x6 x7 x8 (ix2 r j) = Slstm.fGate (Slstm.pre x0 x1 x5 x6 r j) (Slstm.pre x0 x1 x7 x8 r j) (x3 (ix2 r j)) := by
  rw [val_main_v17_apply, val_main_v16_apply, val_main_v15_apply, stabiliser_at, pre_forget]
  rfl

/-- The new cell state: f·c + i·tanh z. -/
theorem cell_at (x0 : Slstm.Sx.Idx → EReal) (x1 : Slstm.Ss.Idx → EReal) (x2 : Slstm.Ss.Idx → EReal) (x3 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (r : Fin 4096) (j : Fin 1024) :
    val_main_v37 (F := Ideal) x0 x1 x2 x3 x5 x6 x7 x8 x9 x10 (ix2 r j) = Slstm.cNew (Slstm.pre x0 x1 x5 x6 r j) (Slstm.pre x0 x1 x7 x8 r j) (Slstm.pre x0 x1 x9 x10 r j) (x3 (ix2 r j)) (x2 (ix2 r j)) := by
  rw [val_main_v37_apply, val_main_v35_apply, val_main_v36_apply, val_main_v23_apply, forgetGate_at, inputGate_at, pre_cell]
  rfl

/-- The new normaliser: f·n + i. -/
theorem normaliser_at (x0 : Slstm.Sx.Idx → EReal) (x1 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (r : Fin 4096) (j : Fin 1024) :
    val_main_v39 (F := Ideal) x0 x1 x3 x4 x5 x6 x7 x8 (ix2 r j) = Slstm.nNew (Slstm.pre x0 x1 x5 x6 r j) (Slstm.pre x0 x1 x7 x8 r j) (x3 (ix2 r j)) (x4 (ix2 r j)) := by
  rw [val_main_v39_apply, val_main_v38_apply, forgetGate_at, inputGate_at]
  rfl

/-- The new hidden state: the sigmoid of o, spelt 1 / (1 + exp (−o)) with both ones the f32 word of 1.0, times c' / n'. -/
theorem hidden_at (x0 : Slstm.Sx.Idx → EReal) (x1 : Slstm.Ss.Idx → EReal) (x2 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (x11 : Slstm.Sw.Idx → EReal) (x12 : Slstm.Sb.Idx → EReal) (r : Fin 4096) (j : Fin 1024) :
    val_main_v41 (F := Ideal) x0 x1 x2 x3 x4 x5 x6 x7 x8 x9 x10 x11 x12 (ix2 r j) = Slstm.hNew (Slstm.pre x0 x1 x5 x6 r j) (Slstm.pre x0 x1 x7 x8 r j) (Slstm.pre x0 x1 x9 x10 r j) (Slstm.pre x0 x1 x11 x12 r j) (x3 (ix2 r j)) (x2 (ix2 r j)) (x4 (ix2 r j)) := by
  rw [val_main_v41_apply, val_main_v34_apply, val_main_v33_apply, val_main_cst_0_apply, val_main_v32_apply,
    val_main_v31_apply, val_main_cst_apply, val_main_v30_apply, val_main_v29_apply, pre_output,
    val_main_v40_apply, cell_at, normaliser_at]
  simp only [Ideal.ofBits_def, Ideal.ofBits_one_f32]
  rfl

/-! The four results as whole arrays: every index of a [4096, 1024] array is (r, j) for a row r and a unit j. -/

/-- The hidden-state result is the cell's. -/
theorem ref_outH (x0 : Slstm.Sx.Idx → EReal) (x1 : Slstm.Ss.Idx → EReal) (x2 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (x11 : Slstm.Sw.Idx → EReal) (x12 : Slstm.Sb.Idx → EReal) :
    val_main_v41 (F := Ideal) x0 x1 x2 x3 x4 x5 x6 x7 x8 x9 x10 x11 x12 = Slstm.outH x0 x1 x2 x3 x4 x5 x6 x7 x8 x9 x10 x11 x12 := by
  funext i
  obtain ⟨r, j, rfl⟩ : ∃ (r : Fin 4096) (j : Fin 1024), i = ix2 r j := ⟨i 0, i 1, eq_ix2 i⟩
  exact hidden_at x0 x1 x2 x3 x4 x5 x6 x7 x8 x9 x10 x11 x12 r j

/-- The cell-state result is the cell's. -/
theorem ref_outC (x0 : Slstm.Sx.Idx → EReal) (x1 : Slstm.Ss.Idx → EReal) (x2 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (x11 : Slstm.Sw.Idx → EReal) (x12 : Slstm.Sb.Idx → EReal) :
    val_main_v37 (F := Ideal) x0 x1 x2 x3 x5 x6 x7 x8 x9 x10 = Slstm.outC x0 x1 x2 x3 x4 x5 x6 x7 x8 x9 x10 x11 x12 := by
  funext i
  obtain ⟨r, j, rfl⟩ : ∃ (r : Fin 4096) (j : Fin 1024), i = ix2 r j := ⟨i 0, i 1, eq_ix2 i⟩
  exact cell_at x0 x1 x2 x3 x5 x6 x7 x8 x9 x10 r j

/-- The stabiliser result is the cell's. -/
theorem ref_outM (x0 : Slstm.Sx.Idx → EReal) (x1 : Slstm.Ss.Idx → EReal) (x2 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (x11 : Slstm.Sw.Idx → EReal) (x12 : Slstm.Sb.Idx → EReal) :
    val_main_v12 (F := Ideal) x0 x1 x3 x5 x6 x7 x8 = Slstm.outM x0 x1 x2 x3 x4 x5 x6 x7 x8 x9 x10 x11 x12 := by
  funext i
  obtain ⟨r, j, rfl⟩ : ∃ (r : Fin 4096) (j : Fin 1024), i = ix2 r j := ⟨i 0, i 1, eq_ix2 i⟩
  exact stabiliser_at x0 x1 x3 x5 x6 x7 x8 r j

/-- The normaliser result is the cell's. -/
theorem ref_outN (x0 : Slstm.Sx.Idx → EReal) (x1 : Slstm.Ss.Idx → EReal) (x2 : Slstm.Ss.Idx → EReal) (x3 : Slstm.Ss.Idx → EReal) (x4 : Slstm.Ss.Idx → EReal) (x5 : Slstm.Sw.Idx → EReal) (x6 : Slstm.Sb.Idx → EReal) (x7 : Slstm.Sw.Idx → EReal) (x8 : Slstm.Sb.Idx → EReal) (x9 : Slstm.Sw.Idx → EReal) (x10 : Slstm.Sb.Idx → EReal) (x11 : Slstm.Sw.Idx → EReal) (x12 : Slstm.Sb.Idx → EReal) :
    val_main_v39 (F := Ideal) x0 x1 x3 x4 x5 x6 x7 x8 = Slstm.outN x0 x1 x2 x3 x4 x5 x6 x7 x8 x9 x10 x11 x12 := by
  funext i
  obtain ⟨r, j, rfl⟩ : ∃ (r : Fin 4096) (j : Fin 1024), i = ix2 r j := ⟨i 0, i 1, eq_ix2 i⟩
  exact normaliser_at x0 x1 x3 x4 x5 x6 x7 x8 r j

end

/-- The reference's run, with its four results named as the cell's arrays of the arguments. -/
theorem run_cell (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = Slstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v37) = Slstm.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v12) = Slstm.outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v39) = Slstm.outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run (defs (F := Ideal)) _ _).mono (fun _ h c => ?_) (Cert.ReferenceIdeal.Value.run (F := Ideal) m ρ)
  exact ⟨(h c).1.trans ((Read.val_main_v41_eq (F := Ideal) m c).trans
      (ref_outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    (h c).2.1.trans ((Read.val_main_v37_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).trans
      (ref_outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    (h c).2.2.1.trans ((Read.val_main_v12_eq (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))).trans
      (ref_outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    (h c).2.2.2.1.trans ((Read.val_main_v39_eq (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans
      (ref_outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    (h c).2.2.2.2⟩

end Cert.ReferenceIdeal.CellValue

end
-- ==== Proof.lean ====
/-
  The sLSTM cell kernel against its jnp reference.

  Both programs compute, for every batch row r and hidden unit j, the four gate pre-activations
  W[j,·]·(x[r,·] ‖ h[r,·]) + b[j] and from them the new stabiliser, cell, normaliser and hidden states
  (Cell.lean). The kernel fuses the four weights into one [1536, 4096] operand and the four biases into
  one row on the host, walks the 4096 rows in sixteen blocks of 256, and forms each pre-activation as a sum
  over the 512 x-columns plus a sum over the 1024 h-columns; the reference concatenates x and h and sums over
  all 1536 columns at once, and spells the output gate's sigmoid as 1 / (1 + exp (−o)). On the extended reals
  a change of float format is the identity, a finite sum may be split at any index, and the sigmoid is that
  quotient by definition, so the two results agree entry by entry, with no appeal to the inputs' finiteness.

  The three frames: the kernel at both instances runs by the launch theorem of a region whose body keeps
  nothing between grid points (IdealRegion.lean, and its layout at the word instance, BitsRegion.lean); the
  reference by its run with the results dropped. The kernel's idealization rewrote nothing, so it preserves
  trivially.
-/
import proofs.«410458_j35450660061940_3_alg».proof.Defs
import proofs.«410458_j35450660061940_3_alg».proof.Proof.Gen.Kernel
import proofs.«410458_j35450660061940_3_alg».proof.Proof.Gen.KernelIdeal
import proofs.«410458_j35450660061940_3_alg».proof.Proof.Gen.ReferenceIdeal
import proofs.«410458_j35450660061940_3_alg».proof.Proof.Gen.Pre_finite_inputs
import proofs.«410458_j35450660061940_3_alg».proof.Proof.BitsRegion
import proofs.«410458_j35450660061940_3_alg».proof.Proof.IdealValue
import proofs.«410458_j35450660061940_3_alg».proof.Proof.RefCell
import Idealize.ShloMosaic.Adequacy
import Idealize.ShloMosaic.Init

noncomputable section

namespace Cert.Proof

open Idealize.ShloMosaic Idealize.SL.Sem

/-- The kernel, read at the word level, runs and leaves its arguments unchanged. -/
theorem frame_kernel : Cert.frame_Kernel := fun m ρ _ => Cert.Kernel.Region.frame (F := Bits) m ρ

/-- So does its idealization. -/
theorem frame_kernelIdeal : Cert.frame_KernelIdeal := fun m ρ _ => Cert.KernelIdeal.Region.frame (F := Ideal) m ρ

/-- So does the reference: its run, the four results dropped. -/
theorem frame_reference : Cert.frame_ReferenceIdeal := fun m ρ _ =>
  (θ_run Cert.ReferenceIdeal.defs _ _).mono (fun _ h c => (h c).2.2.2.2) (Cert.ReferenceIdeal.CellValue.run_cell m ρ)

set_option maxHeartbeats 1000000 in
/-- From memories agreeing on the thirteen arguments both programs end with the cell's four arrays of those
    arguments: the kernel's run and the reference's run name the same arrays (the witnesses are the kernel run's). -/
theorem algebraic : Cert.algebraic_KernelIdeal_ReferenceIdeal := by
  intro m ρ m' ρ' _ hagree
  refine ⟨_, _, _, _, Cert.KernelIdeal.CellRun.run_cell m ρ, ?_⟩
  refine (θ_run Cert.ReferenceIdeal.defs _ _).mono (fun _ h c => ?_) (Cert.ReferenceIdeal.CellValue.run_cell m' ρ')
  obtain ⟨a0, a1, a2, a3, a4, a5, a6, a7, a8, a9, a10, a11, a12⟩ := hagree c
  obtain ⟨hH, hC, hM, hN, hkept⟩ := h c
  refine ⟨hH.trans ?_, hC.trans ?_, hM.trans ?_, hN.trans ?_, hkept⟩
  · rw [a0, a1, a2, a3, a4, a5, a6, a7, a8, a9, a10, a11, a12]
  · rw [a0, a1, a2, a3, a4, a5, a6, a7, a8, a9, a10, a11, a12]
  · rw [a0, a1, a2, a3, a4, a5, a6, a7, a8, a9, a10, a11, a12]
  · rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
